-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S400000 : Shape := ⟨1, ![400000]⟩
abbrev S1433x384 : Shape := ⟨2, ![1433, 384]⟩
abbrev S384 : Shape := ⟨1, ![384]⟩
abbrev S384x256 : Shape := ⟨2, ![384, 256]⟩
abbrev S256 : Shape := ⟨1, ![256]⟩
abbrev S256x7 : Shape := ⟨2, ![256, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x384 : S_.BroadcastsInDim S1433x384 (![] : Fin 0 → Fin S1433x384.rank)
  reducesTo_S1433x384_S_d0_1 : S1433x384.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_
  bcast_S_S400000 : S_.BroadcastsInDim S400000 (![] : Fin 0 → Fin S400000.rank)
  reducesTo_S400000_S_d0 : S400000.ReducesTo [0] S_

variable [Facts]

def fn_part2 {F : FTy → Type} [FloatOps F] (main_arg1 : IVec S400000 32) (main_v33 : IVec S_ 1) : IVec S_ 1 :=
  let main_c_12 : IVec S_ 32 := constantI S_ 32 4294917296#32
  let main_v34 : IVec S400000 32 := broadcastInDim S400000 ![] bcast_S_S400000 main_c_12
  let main_v35 : IVec S400000 1 := cmpi .sge main_arg1 main_v34
  let main_c_13 : IVec S_ 32 := constantI S_ 32 50000#32
  let main_v36 : IVec S400000 32 := broadcastInDim S400000 ![] bcast_S_S400000 main_c_13
  let main_v37 : IVec S400000 1 := cmpi .slt main_arg1 main_v36
  let main_v38 : IVec S400000 1 := andi main_v35 main_v37
  let main_c_14 : IVec S_ 1 := constantI S_ 1 1#1
  let main_v39 : IVec S_ 1 := (fun x v => Host.reduce IntOp.andi x v reducesTo_S400000_S_d0 h_S_) main_v38 main_c_14
  let main_v40 : IVec S_ 1 := andi main_v33 main_v39
  main_v40

def fn_part1 {F : FTy → Type} [FloatOps F] (main_arg1 : IVec S400000 32) (main_arg6 : FVec F S256 .f32) (main_arg7 : FVec F S256x7 .f32) (main_arg8 : FVec F S7 .f32) (main_v13 : IVec S_ 1) (main_v16 : IVec S384x256 1) : IVec S_ 1 :=
  let main_c_5 : IVec S_ 1 := constantI S_ 1 1#1
  let main_v17 : IVec S_ 1 := (fun x v => Host.reduce IntOp.andi x v reducesTo_S384x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x7 .f32 := Host.absf main_arg7
  let main_cst_8 : FVec F S_ .f32 := constant S_ .f32 0x7F800000#32
  let main_v25 : FVec F S256x7 .f32 := broadcastInDim S256x7 ![] bcast_S_S256x7 main_cst_8
  let main_v26 : IVec S256x7 1 := cmpf .olt main_v24 main_v25
  let main_c_9 : IVec S_ 1 := constantI S_ 1 1#1
  let main_v27 : IVec S_ 1 := (fun x v => Host.reduce IntOp.andi x v reducesTo_S256x7_S_d0_1 h_S_) main_v26 main_c_9
  let main_v28 : IVec S_ 1 := andi main_v23 main_v27
  let main_v29 : FVec F S7 .f32 := Host.absf main_arg8
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  fn_part2 (F := F) main_arg1 main_v33

def fn {F : FTy → Type} [FloatOps F] (main_arg0 : FVec F S50000x1433 .f32) (main_arg1 : IVec S400000 32) (main_arg2 : IVec S400000 32) (main_arg3 : FVec F S1433x384 .f32) (main_arg4 : FVec F S384 .f32) (main_arg5 : FVec F S384x256 .f32) (main_arg6 : FVec F S256 .f32) (main_arg7 : FVec F S256x7 .f32) (main_arg8 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x384 .f32 := Host.absf main_arg3
  let main_cst_0 : FVec F S_ .f32 := constant S_ .f32 0x7F800000#32
  let main_v5 : FVec F S1433x384 .f32 := broadcastInDim S1433x384 ![] bcast_S_S1433x384 main_cst_0
  let main_v6 : IVec S1433x384 1 := cmpf .olt main_v4 main_v5
  let main_c_1 : IVec S_ 1 := constantI S_ 1 1#1
  let main_v7 : IVec S_ 1 := (fun x v => Host.reduce IntOp.andi x v reducesTo_S1433x384_S_d0_1 h_S_) main_v6 main_c_1
  let main_v8 : IVec S_ 1 := andi main_v3 main_v7
  let main_v9 : FVec F S384 .f32 := Host.absf main_arg4
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x256 .f32 := Host.absf main_arg5
  let main_cst_4 : FVec F S_ .f32 := constant S_ .f32 0x7F800000#32
  let main_v15 : FVec F S384x256 .f32 := broadcastInDim S384x256 ![] bcast_S_S384x256 main_cst_4
  let main_v16 : IVec S384x256 1 := cmpf .olt main_v14 main_v15
  fn_part1 (F := F) main_arg1 main_arg6 main_arg7 main_arg8 main_v13 main_v16
-- ==== Kernel.lean ====
abbrev S50000x1433 : Shape := ⟨2, ![50000, 1433]⟩
abbrev S400000 : Shape := ⟨1, ![400000]⟩
abbrev S1433x384 : Shape := ⟨2, ![1433, 384]⟩
abbrev S384 : Shape := ⟨1, ![384]⟩
abbrev S384x256 : Shape := ⟨2, ![384, 256]⟩
abbrev S256 : Shape := ⟨1, ![256]⟩
abbrev S256x7 : Shape := ⟨2, ![256, 7]⟩
abbrev S7 : Shape := ⟨1, ![7]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S50000x384 : Shape := ⟨2, ![50000, 384]⟩
abbrev S1000x1433 : Shape := ⟨2, ![1000, 1433]⟩
abbrev S1000x1 : Shape := ⟨2, ![1000, 1]⟩
abbrev S1000x384 : Shape := ⟨2, ![1000, 384]⟩
abbrev S1 : Shape := ⟨1, ![1]⟩
abbrev S1x1 : Shape := ⟨2, ![1, 1]⟩
abbrev S400000x384 : Shape := ⟨2, ![400000, 384]⟩
abbrev S1x384 : Shape := ⟨2, ![1, 384]⟩
abbrev S50000x256 : Shape := ⟨2, ![50000, 256]⟩
abbrev S1000x256 : Shape := ⟨2, ![1000, 256]⟩
abbrev S400000x256 : Shape := ⟨2, ![400000, 256]⟩
abbrev S1x256 : Shape := ⟨2, ![1, 256]⟩
abbrev S1x7 : Shape := ⟨2, ![1, 7]⟩
abbrev S50000x7 : Shape := ⟨2, ![50000, 7]⟩
abbrev S1000x7 : Shape := ⟨2, ![1000, 7]⟩

abbrev nBuf : Space → Nat
  | .hbm => 89
  | .vmem => 26
  | .smem => 0
  | _ => 0

abbrev bufTy : (tb : Table) → Fin (tcTables nBuf tb) → BufTy
  | .hbm, ⟨0, _⟩ => ⟨S50000x1433, .f32⟩
  | .hbm, ⟨1, _⟩ => ⟨S400000, .i32⟩
  | .hbm, ⟨2, _⟩ => ⟨S400000, .i32⟩
  | .hbm, ⟨3, _⟩ => ⟨S1433x384, .f32⟩
  | .hbm, ⟨4, _⟩ => ⟨S384, .f32⟩
  | .hbm, ⟨5, _⟩ => ⟨S384x256, .f32⟩
  | .hbm, ⟨6, _⟩ => ⟨S256, .f32⟩
  | .hbm, ⟨7, _⟩ => ⟨S256x7, .f32⟩
  | .hbm, ⟨8, _⟩ => ⟨S7, .f32⟩
  | .hbm, ⟨9, _⟩ => ⟨S_, .f32⟩
  | .hbm, ⟨10, _⟩ => ⟨S400000, .f32⟩
  | .hbm, ⟨11, _⟩ => ⟨S_, .f32⟩
  | .hbm, ⟨12, _⟩ => ⟨S50000, .f32⟩
  | .hbm, ⟨13, _⟩ => ⟨S400000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S400000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x384, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S1, .i32⟩
  | .hbm, ⟨39, _⟩ => ⟨S_, .i32⟩
  | .hbm, ⟨40, _⟩ => ⟨S400000x1, .i32⟩
  | .hbm, ⟨41, _⟩ => ⟨S400000x1, .i1⟩
  | .hbm, ⟨42, _⟩ => ⟨S1x1, .i32⟩
  | .hbm, ⟨43, _⟩ => ⟨S400000x1, .i32⟩
  | .hbm, ⟨44, _⟩ => ⟨S400000x1, .i1⟩
  | .hbm, ⟨45, _⟩ => ⟨S400000x1, .i1⟩
  | .hbm, ⟨46, _⟩ => ⟨S_, .i1⟩
  | .hbm, ⟨47, _⟩ => ⟨S400000, .i1⟩
  | .hbm, ⟨48, _⟩ => ⟨S400000x384, .f32⟩
  | .hbm, ⟨49, _⟩ => ⟨S400000x384, .i1⟩
  | .hbm, ⟨50, _⟩ => ⟨S_, .f32⟩
  | .hbm, ⟨51, _⟩ => ⟨S400000x384, .f32⟩
  | .hbm, ⟨52, _⟩ => ⟨S400000x384, .f32⟩
  | .hbm, ⟨53, _⟩ => ⟨S_, .f32⟩
  | .hbm, ⟨54, _⟩ => ⟨S50000x384, .f32⟩
  | .hbm, ⟨55, _⟩ => ⟨S400000x1, .i32⟩
  | .hbm, ⟨56, _⟩ => ⟨S50000x384, .f32⟩
  | .hbm, ⟨57, _⟩ => ⟨S1x384, .f32⟩
  | .hbm, ⟨58, _⟩ => ⟨S50000x256, .f32⟩
  | .hbm, ⟨59, _⟩ => ⟨S_, .i32⟩
  | .hbm, ⟨60, _⟩ => ⟨S400000, .i32⟩
  | .hbm, ⟨61, _⟩ => ⟨S400000, .i1⟩
  | .hbm, ⟨62, _⟩ => ⟨S_, .i32⟩
  | .hbm, ⟨63, _⟩ => ⟨S400000, .i32⟩
  | .hbm, ⟨64, _⟩ => ⟨S400000, .i32⟩
  | .hbm, ⟨65, _⟩ => ⟨S400000, .i32⟩
  | .hbm, ⟨66, _⟩ => ⟨S400000x1, .i32⟩
  | .hbm, ⟨67, _⟩ => ⟨S1, .i32⟩
  | .hbm, ⟨68, _⟩ => ⟨S_, .i32⟩
  | .hbm, ⟨69, _⟩ => ⟨S400000x1, .i32⟩
  | .hbm, ⟨70, _⟩ => ⟨S400000x1, .i1⟩
  | .hbm, ⟨71, _⟩ => ⟨S1x1, .i32⟩
  | .hbm, ⟨72, _⟩ => ⟨S400000x1, .i32⟩
  | .hbm, ⟨73, _⟩ => ⟨S400000x1, .i1⟩
  | .hbm, ⟨74, _⟩ => ⟨S400000x1, .i1⟩
  | .hbm, ⟨75, _⟩ => ⟨S_, .i1⟩
  | .hbm, ⟨76, _⟩ => ⟨S400000, .i1⟩
  | .hbm, ⟨77, _⟩ => ⟨S400000x256, .f32⟩
  | .hbm, ⟨78, _⟩ => ⟨S400000x256, .i1⟩
  | .hbm, ⟨79, _⟩ => ⟨S_, .f32⟩
  | .hbm, ⟨80, _⟩ => ⟨S400000x256, .f32⟩
  | .hbm, ⟨81, _⟩ => ⟨S400000x256, .f32⟩
  | .hbm, ⟨82, _⟩ => ⟨S_, .f32⟩
  | .hbm, ⟨83, _⟩ => ⟨S50000x256, .f32⟩
  | .hbm, ⟨84, _⟩ => ⟨S400000x1, .i32⟩
  | .hbm, ⟨85, _⟩ => ⟨S50000x256, .f32⟩
  | .hbm, ⟨86, _⟩ => ⟨S1x256, .f32⟩
  | .hbm, ⟨87, _⟩ => ⟨S1x7, .f32⟩
  | .hbm, ⟨88, _⟩ => ⟨S50000x7, .f32⟩
  | .local _ .vmem, ⟨0, _⟩ => ⟨S1000x1433, .f32⟩
  | .local _ .vmem, ⟨1, _⟩ => ⟨S1000x1433, .f32⟩
  | .local _ .vmem, ⟨2, _⟩ => ⟨S1433x384, .f32⟩
  | .local _ .vmem, ⟨3, _⟩ => ⟨S1000x1, .f32⟩
  | .local _ .vmem, ⟨4, _⟩ => ⟨S1000x1, .f32⟩
  | .local _ .vmem, ⟨5, _⟩ => ⟨S1000x384, .f32⟩
  | .local _ .vmem, ⟨6, _⟩ => ⟨S1000x384, .f32⟩
  | .local _ .vmem, ⟨7, _⟩ => ⟨S1000x384, .f32⟩
  | .local _ .vmem, ⟨8, _⟩ => ⟨S1000x384, .f32⟩
  | .local _ .vmem, ⟨9, _⟩ => ⟨S1000x1, .f32⟩
  | .local _ .vmem, ⟨10, _⟩ => ⟨S1000x1, .f32⟩
  | .local _ .vmem, ⟨11, _⟩ => ⟨S1x384, .f32⟩
  | .local _ .vmem, ⟨12, _⟩ => ⟨S384x256, .f32⟩
  | .local _ .vmem, ⟨13, _⟩ => ⟨S1000x1, .f32⟩
  | .local _ .vmem, ⟨14, _⟩ => ⟨S1000x1, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x1, .f32⟩
  | .local _ .vmem, ⟨20, _⟩ => ⟨S1000x1, .f32⟩
  | .local _ .vmem, ⟨21, _⟩ => ⟨S1x256, .f32⟩
  | .local _ .vmem, ⟨22, _⟩ => ⟨S256x7, .f32⟩
  | .local _ .vmem, ⟨23, _⟩ => ⟨S1x7, .f32⟩
  | .local _ .vmem, ⟨24, _⟩ => ⟨S1000x7, .f32⟩
  | .local _ .vmem, ⟨25, _⟩ => ⟨S1000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v16 : Ref sig .tc := ⟨.hbm, 52, rfl⟩
abbrev main_cst_4 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v22 : Ref sig .tc := ⟨.hbm, 81, rfl⟩
abbrev main_cst_5 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x7 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x7 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x7 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x384_S1433x384_0_0 : ∀ a, (![0, 0] : Fin 2 → Nat) a + S1433x384.size a ≤ S1433x384.size a
  h_S1433x384 : 0 < S1433x384.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x384 : S1000x1.Broadcasts S1000x384
  inb_S1000x384_S1000x384_0_0 : ∀ a, (![0, 0] : Fin 2 → Nat) a + S1000x384.size a ≤ S1000x384.size a
  h_S1000x384 : 0 < S1000x384.numel
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x384_0 : S400000.BroadcastsInDim S400000x384 (![0] : Fin 1 → Fin S400000x384.rank)
  bcast_S_S400000x384 : S_.BroadcastsInDim S400000x384 (![] : Fin 0 → Fin S400000x384.rank)
  bcast_S_S50000x384 : S_.BroadcastsInDim S50000x384 (![] : Fin 0 → Fin S50000x384.rank)
  shapeCasts_S384_S1x384 : S384.ShapeCasts S1x384
  shapeCasts_S1000x384_S1000x384 : S1000x384.ShapeCasts S1000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  inb_S384x256_S384x256_0_0 : ∀ a, (![0, 0] : Fin 2 → Nat) a + S384x256.size a ≤ S384x256.size a
  h_S384x256 : 0 < S384x256.numel
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S400000_S400000x256_0 : S400000.BroadcastsInDim S400000x256 (![0] : Fin 1 → Fin S400000x256.rank)
  bcast_S_S400000x256 : S_.BroadcastsInDim S400000x256 (![] : Fin 0 → Fin S400000x256.rank)
  bcast_S_S50000x256 : S_.BroadcastsInDim S50000x256 (![] : Fin 0 → Fin S50000x256.rank)
  shapeCasts_S256_S1x256 : S256.ShapeCasts S1x256
  shapeCasts_S7_S1x7 : S7.ShapeCasts S1x7
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x7_S256x7_0_0 : ∀ a, (![0, 0] : Fin 2 → Nat) a + S256x7.size a ≤ S256x7.size a
  h_S256x7 : 0 < S256x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S1000x7 : S1x7.Broadcasts S1000x7
  inb_S1000x7_S1000x7_0_0 : ∀ a, (![0, 0] : Fin 2 → Nat) a + S1000x7.size a ≤ S1000x7.size a
  h_S1000x7 : 0 < S1000x7.numel
  scatter_S50000_S400000x1_S400000_n_0_0_1_wf : ScatterDims.WF S50000 S400000x1 S400000 [] [0] [0] 1
  dot_S1000x1433_S1433x384_S1000x384_1_0_0_1_n_n_wf : DotDims.WF S1000x1433 S1433x384 S1000x384 [1] [0] [0] [1] [] []
  gather_S50000x384_S400000x1_S400000x384_1_0_n_n_0_1_1384_wf : GatherDims.WF S50000x384 S400000x1 S400000x384 [1] [0] [] [0] [] 1 ![1, 384]
  scatter_S50000x384_S400000x1_S400000x384_1_0_0_1_wf : ScatterDims.WF S50000x384 S400000x1 S400000x384 [1] [0] [0] 1
  dot_S1000x384_S384x256_S1000x256_1_0_0_1_n_n_wf : DotDims.WF S1000x384 S384x256 S1000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S1000x256_S256x7_S1000x7_1_0_0_1_n_n_wf : DotDims.WF S1000x256 S256x7 S1000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x384.size a ≤ S1433x384.size a
  hwx0_1 : ∀ i : grid0.Coords, EltTy.bits .f32 = 32 ∨ (Rect.block (s := S1433x384) S1433x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x384.size a ≤ S50000x384.size a
  hwx0_3 : ∀ i : grid0.Coords, EltTy.bits .f32 = 32 ∨ (Rect.block (s := S50000x384) S1000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x384.size a ≤ S50000x384.size a
  hwx1_0 : ∀ i : grid1.Coords, EltTy.bits .f32 = 32 ∨ (Rect.block (s := S50000x384) S1000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x256.size a ≤ S384x256.size a
  hwx1_3 : ∀ i : grid1.Coords, EltTy.bits .f32 = 32 ∨ (Rect.block (s := S384x256) S384x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x1.size a ≤ S50000x1.size a
  hwx1_4 : ∀ i : grid1.Coords, EltTy.bits .f32 = 32 ∨ (Rect.block (s := S50000x1) S1000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S50000x256.size a
  hwx1_5 : ∀ i : grid1.Coords, EltTy.bits .f32 = 32 ∨ (Rect.block (s := S50000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x7.size a ≤ S256x7.size a
  hwx2_3 : ∀ i : grid2.Coords, EltTy.bits .f32 = 32 ∨ (Rect.block (s := S256x7) S256x7.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x7.size a ≤ S1x7.size a
  hwx2_4 : ∀ i : grid2.Coords, EltTy.bits .f32 = 32 ∨ (Rect.block (s := S1x7) S1x7.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x7.size a ≤ S50000x7.size a
  hwx2_5 : ∀ i : grid2.Coords, EltTy.bits .f32 = 32 ∨ (Rect.block (s := S50000x7) S1000x7.size (cc2_transform_5 i) (hinb2_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S1000x1433_S1433x384_S1000x384_1_0_0_1_n_n : DotDims S1000x1433 S1433x384 S1000x384 where
  lhsContracting := [1]
  rhsContracting := [0]
  lhsNonContracting := [0]
  rhsNonContracting := [1]
  lhsBatch := []
  rhsBatch := []
  wf := dot_S1000x1433_S1433x384_S1000x384_1_0_0_1_n_n_wf
def gather_S50000x384_S400000x1_S400000x384_1_0_n_n_0_1_1384 : GatherDims S50000x384 S400000x1 S400000x384 where
  offsetDims := [1]
  collapsedSliceDims := [0]
  operandBatchingDims := []
  startIndicesBatchingDims := []
  startIndexMap := [0]
  indexVectorDim := 1
  sliceSizes := ![1, 384]
  wf := gather_S50000x384_S400000x1_S400000x384_1_0_n_n_0_1_1384_wf
def scatter_S50000x384_S400000x1_S400000x384_1_0_0_1 : ScatterDims S50000x384 S400000x1 S400000x384 where
  updateWindowDims := [1]
  insertedWindowDims := [0]
  scatterDimsToOperandDims := [0]
  indexVectorDim := 1
  wf := scatter_S50000x384_S400000x1_S400000x384_1_0_0_1_wf
def dot_S1000x384_S384x256_S1000x256_1_0_0_1_n_n : DotDims S1000x384 S384x256 S1000x256 where
  lhsContracting := [1]
  rhsContracting := [0]
  lhsNonContracting := [0]
  rhsNonContracting := [1]
  lhsBatch := []
  rhsBatch := []
  wf := dot_S1000x384_S384x256_S1000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S1000x256_S256x7_S1000x7_1_0_0_1_n_n : DotDims S1000x256 S256x7 S1000x7 where
  lhsContracting := [1]
  rhsContracting := [0]
  lhsNonContracting := [0]
  rhsNonContracting := [1]
  lhsBatch := []
  rhsBatch := []
  wf := dot_S1000x256_S256x7_S1000x7_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1433x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S1000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S384x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x7.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x7.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1000x7.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S400000 : Shape := ⟨1, ![400000]⟩
abbrev S1433x384 : Shape := ⟨2, ![1433, 384]⟩
abbrev S384 : Shape := ⟨1, ![384]⟩
abbrev S384x256 : Shape := ⟨2, ![384, 256]⟩
abbrev S256 : Shape := ⟨1, ![256]⟩
abbrev S256x7 : Shape := ⟨2, ![256, 7]⟩
abbrev S7 : Shape := ⟨1, ![7]⟩
abbrev S_ : Shape := ⟨0, ![]⟩
abbrev S50000 : Shape := ⟨1, ![50000]⟩
abbrev S400000x1 : Shape := ⟨2, ![400000, 1]⟩
abbrev S50000x384 : Shape := ⟨2, ![50000, 384]⟩
abbrev S50000x1 : Shape := ⟨2, ![50000, 1]⟩
abbrev S400000x384 : Shape := ⟨2, ![400000, 384]⟩
abbrev S1x384 : Shape := ⟨2, ![1, 384]⟩
abbrev S50000x256 : Shape := ⟨2, ![50000, 256]⟩
abbrev S400000x256 : Shape := ⟨2, ![400000, 256]⟩
abbrev S1x256 : Shape := ⟨2, ![1, 256]⟩
abbrev S50000x7 : Shape := ⟨2, ![50000, 7]⟩
abbrev S1x7 : Shape := ⟨2, ![1, 7]⟩

abbrev nBuf : Space → Nat
  | .hbm => 80
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S400000, .i32⟩
  | .hbm, ⟨2, _⟩ => ⟨S400000, .i32⟩
  | .hbm, ⟨3, _⟩ => ⟨S1433x384, .f32⟩
  | .hbm, ⟨4, _⟩ => ⟨S384, .f32⟩
  | .hbm, ⟨5, _⟩ => ⟨S384x256, .f32⟩
  | .hbm, ⟨6, _⟩ => ⟨S256, .f32⟩
  | .hbm, ⟨7, _⟩ => ⟨S256x7, .f32⟩
  | .hbm, ⟨8, _⟩ => ⟨S7, .f32⟩
  | .hbm, ⟨9, _⟩ => ⟨S_, .f32⟩
  | .hbm, ⟨10, _⟩ => ⟨S400000, .f32⟩
  | .hbm, ⟨11, _⟩ => ⟨S_, .f32⟩
  | .hbm, ⟨12, _⟩ => ⟨S50000, .f32⟩
  | .hbm, ⟨13, _⟩ => ⟨S400000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S400000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x384, .f32⟩
  | .hbm, ⟨28, _⟩ => ⟨S50000x1, .f32⟩
  | .hbm, ⟨29, _⟩ => ⟨S50000x384, .f32⟩
  | .hbm, ⟨30, _⟩ => ⟨S50000x384, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x384, .f32⟩
  | .hbm, ⟨40, _⟩ => ⟨S_, .f32⟩
  | .hbm, ⟨41, _⟩ => ⟨S50000x384, .f32⟩
  | .hbm, ⟨42, _⟩ => ⟨S400000x1, .i32⟩
  | .hbm, ⟨43, _⟩ => ⟨S50000x384, .f32⟩
  | .hbm, ⟨44, _⟩ => ⟨S50000x1, .f32⟩
  | .hbm, ⟨45, _⟩ => ⟨S50000x384, .f32⟩
  | .hbm, ⟨46, _⟩ => ⟨S50000x384, .f32⟩
  | .hbm, ⟨47, _⟩ => ⟨S1x384, .f32⟩
  | .hbm, ⟨48, _⟩ => ⟨S50000x384, .f32⟩
  | .hbm, ⟨49, _⟩ => ⟨S50000x384, .f32⟩
  | .hbm, ⟨50, _⟩ => ⟨S_, .f32⟩
  | .hbm, ⟨51, _⟩ => ⟨S50000x384, .f32⟩
  | .hbm, ⟨52, _⟩ => ⟨S50000x384, .f32⟩
  | .hbm, ⟨53, _⟩ => ⟨S50000x256, .f32⟩
  | .hbm, ⟨54, _⟩ => ⟨S50000x1, .f32⟩
  | .hbm, ⟨55, _⟩ => ⟨S50000x256, .f32⟩
  | .hbm, ⟨56, _⟩ => ⟨S50000x256, .f32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S400000x256, .f32⟩
  | .hbm, ⟨66, _⟩ => ⟨S_, .f32⟩
  | .hbm, ⟨67, _⟩ => ⟨S50000x256, .f32⟩
  | .hbm, ⟨68, _⟩ => ⟨S400000x1, .i32⟩
  | .hbm, ⟨69, _⟩ => ⟨S50000x256, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x7, .f32⟩
  | .hbm, ⟨77, _⟩ => ⟨S1x7, .f32⟩
  | .hbm, ⟨78, _⟩ => ⟨S50000x7, .f32⟩
  | .hbm, ⟨79, _⟩ => ⟨S50000x7, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x384_0_1 : S50000x1.BroadcastsInDim S50000x384 (![0, 1] : Fin 2 → Fin S50000x384.rank)
  bcast_S_S50000x384 : S_.BroadcastsInDim S50000x384 (![] : Fin 0 → Fin S50000x384.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S400000x1_S400000_n_0_0_1_wf : ScatterDims.WF S50000 S400000x1 S400000 [] [0] [0] 1
  dot_S50000x1433_S1433x384_S50000x384_1_0_0_1_n_n_wf : DotDims.WF S50000x1433 S1433x384 S50000x384 [1] [0] [0] [1] [] []
  gather_S50000x384_S400000x1_S400000x384_1_0_n_n_0_1_1384_wf : GatherDims.WF S50000x384 S400000x1 S400000x384 [1] [0] [] [0] [] 1 ![1, 384]
  scatter_S50000x384_S400000x1_S400000x384_1_0_0_1_wf : ScatterDims.WF S50000x384 S400000x1 S400000x384 [1] [0] [0] 1
  dot_S50000x384_S384x256_S50000x256_1_0_0_1_n_n_wf : DotDims.WF S50000x384 S384x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x7_S50000x7_1_0_0_1_n_n_wf : DotDims.WF S50000x256 S256x7 S50000x7 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x1433_S1433x384_S50000x384_1_0_0_1_n_n : DotDims S50000x1433 S1433x384 S50000x384 where
  lhsContracting := [1]
  rhsContracting := [0]
  lhsNonContracting := [0]
  rhsNonContracting := [1]
  lhsBatch := []
  rhsBatch := []
  wf := dot_S50000x1433_S1433x384_S50000x384_1_0_0_1_n_n_wf
def gather_S50000x384_S400000x1_S400000x384_1_0_n_n_0_1_1384 : GatherDims S50000x384 S400000x1 S400000x384 where
  offsetDims := [1]
  collapsedSliceDims := [0]
  operandBatchingDims := []
  startIndicesBatchingDims := []
  startIndexMap := [0]
  indexVectorDim := 1
  sliceSizes := ![1, 384]
  wf := gather_S50000x384_S400000x1_S400000x384_1_0_n_n_0_1_1384_wf
def scatter_S50000x384_S400000x1_S400000x384_1_0_0_1 : ScatterDims S50000x384 S400000x1 S400000x384 where
  updateWindowDims := [1]
  insertedWindowDims := [0]
  scatterDimsToOperandDims := [0]
  indexVectorDim := 1
  wf := scatter_S50000x384_S400000x1_S400000x384_1_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x7_S50000x7_1_0_0_1_n_n : DotDims S50000x256 S256x7 S50000x7 where
  lhsContracting := [1]
  rhsContracting := [0]
  lhsNonContracting := [0]
  rhsNonContracting := [1]
  lhsBatch := []
  rhsBatch := []
  wf := dot_S50000x256_S256x7_S50000x7_1_0_0_1_n_n_wf

class Facts : Prop extends Facts₀ where

variable [Facts]
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.HostStretches.lean ====
/-
WHAT THE HOST OPERATIONS BETWEEN THE KERNELS COMPUTE, each stretch as a function of the buffers it reads.

  Before the first kernel: the two degree factors 1/√max(deg, 1), one from the edges' sources and one from their
  destinations, each as a column. After the first and after the second kernel: the kernel's output rows gathered at the
  edges' sources (a negative source counted from the end of the node axis; a row of NaN where the source is still out of
  range), summed into the edges' destinations from zero; and the next bias vector as a row. A buffer a stretch does not
  write keeps its contents.
-/
import proofs.«411039_j50122268344779_1_alg».proof.Proof.Gen.KernelIdeal.Frame
import proofs.«411039_j50122268344779_1_alg».proof.Proof.LibTRefCast
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-! ## The host's values between the regions, as functions of what a stretch reads -/

/-- A node's degree factor as a column: one over the square root of the larger of 1 and the number of edges whose
    endpoint (the entry of idx) is the node. -/
def degScale (idx : IVec S400000 32) : FVec F S50000x1 .f32 :=
  shapeCast S50000x1 (Host.rsqrt (maximumf
    (Host.scatterAdd scatter_S50000_S400000x1_S400000_n_0_0_1
      (broadcastInDim S50000 ![] bcast_S_S50000 (constant S_ .f32 0x00000000#32))
      (broadcastInDim S400000x1 ![0] bcast_S400000_S400000x1_0 idx)
      (broadcastInDim S400000 ![] bcast_S_S400000 (constant S_ .f32 0x3F800000#32)))
    (broadcastInDim S50000 ![] bcast_S_S50000 (constant S_ .f32 0x3F800000#32)))) shapeCasts_S50000_S50000x1

/-- The edges' source indices with NumPy's negative indices counted from the end, as a column of start indices. -/
def wrapIdx (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

/-- Per edge, whether its wrapped source index lies in 0 … 49999. -/
def inRange (idx : IVec S400000 32) : IVec S400000 1 :=
  Host.reduce IntOp.andi
    (andi (cmpi .sge (wrapIdx idx) (broadcastInDim S400000x1 ![] bcast_S_S400000x1 (constantI S_ 32 0#32)))
      (cmpi .sle (wrapIdx idx) (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- The rows of H at the edges' sources, a row of NaN where the source is out of range (jnp.take's fill mode), H of 384 columns. -/
def take384 (H : FVec F S50000x384 .f32) (idx : IVec S400000 32) : FVec F S400000x384 .f32 :=
  select (broadcastInDim S400000x384 ![0] bcast_S400000_S400000x384_0 (inRange idx))
    (Host.gather gather_S50000x384_S400000x1_S400000x384_1_0_n_n_0_1_1384 H (wrapIdx idx))
    (broadcastInDim S400000x384 ![] bcast_S_S400000x384 (constant S_ .f32 0x7FC00000#32))

/-- The same for H of 256 columns. -/
def take256 (H : FVec F S50000x256 .f32) (idx : IVec S400000 32) : FVec F S400000x256 .f32 :=
  select (broadcastInDim S400000x256 ![0] bcast_S400000_S400000x256_0 (inRange idx))
    (Host.gather gather_S50000x256_S400000x1_S400000x256_1_0_n_n_0_1_1256 H (wrapIdx idx))
    (broadcastInDim S400000x256 ![] bcast_S_S400000x256 (constant S_ .f32 0x7FC00000#32))

/-- The gathered rows summed into the edges' destinations, from zero (384 columns). -/
def segSum384 (dst : IVec S400000 32) (rows : FVec F S400000x384 .f32) : FVec F S50000x384 .f32 :=
  Host.scatterAdd scatter_S50000x384_S400000x1_S400000x384_1_0_0_1
    (broadcastInDim S50000x384 ![] bcast_S_S50000x384 (constant S_ .f32 0x00000000#32))
    (broadcastInDim S400000x1 ![0] bcast_S400000_S400000x1_0 dst) rows

/-- The same for 256 columns. -/
def segSum256 (dst : IVec S400000 32) (rows : FVec F S400000x256 .f32) : FVec F S50000x256 .f32 :=
  Host.scatterAdd scatter_S50000x256_S400000x1_S400000x256_1_0_0_1
    (broadcastInDim S50000x256 ![] bcast_S_S50000x256 (constant S_ .f32 0x00000000#32))
    (broadcastInDim S400000x1 ![0] bcast_S400000_S400000x1_0 dst) rows

variable (U : Valuation τ sig (Elt F))

/-! ## The stretch before the first region -/

abbrev written0 : List (Ref sig .tc) := [main_cst, main_v0, main_cst_0, main_v1, main_v2, main_v3, main_cst_1, main_v4, main_v5, main_v6, main_cst_2, main_v7, main_v8, main_v9, main_v10, main_cst_3, main_v11, main_v12, main_v13, main_v14]

/-- A buffer the first stretch does not write keeps its contents. -/
theorem keep0 (r : Ref sig .tc) (hr : r ∉ written0) :
    StableHlo.after (hostOps0 (F := F)) U (Proc.devRef .tc r) = U (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hr (h ▸ by decide))))

theorem outScale0 : StableHlo.after (hostOps0 (F := F)) U (Proc.devRef .tc main_v10) = degScale (U (Proc.devRef .tc main_arg1)) := by
  after_results
  rfl

theorem inScale0 : StableHlo.after (hostOps0 (F := F)) U (Proc.devRef .tc main_v14) = degScale (U (Proc.devRef .tc main_arg2)) := by
  after_results
  rfl

/-! ## The first gather -/

abbrev written1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v16]

theorem keep1 (r : Ref sig .tc) (hr : r ∉ written1) :
    StableHlo.after (hostOps1 (F := F)) U (Proc.devRef .tc r) = U (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hr (h ▸ by decide))))

theorem take1 : StableHlo.after (hostOps1 (F := F)) U (Proc.devRef .tc main_v16)
    = take384 (U (Proc.devRef .tc main_v15)) (U (Proc.devRef .tc main_arg1)) := by
  after_results_simp
  simp only [TRef.ofBuf_toBuf]
  unfold take384 inRange wrapIdx
  simp only [TRef.toBuf, TRef.ofBuf, cast_eq]

/-! ## The first segment sum, and the first bias as a row -/

abbrev written1_1 : List (Ref sig .tc) := [main_cst_4, main_v17, main_v18, main_v19, main_v20]

theorem keep1_1 (r : Ref sig .tc) (hr : r ∉ written1_1) :
    StableHlo.after (hostOps1_1 (F := F)) U (Proc.devRef .tc r) = U (Proc.devRef .tc r) :=
  StableHlo.after_of_forall_not_mem (b := Proc.devRef .tc r) _ _ (List.forall_iff_forall_mem.mp (by
    simp only [hostOps1_1, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hr (h ▸ by decide))))

theorem agg1 : StableHlo.after (hostOps1_1 (F := F)) U (Proc.devRef .tc main_v19)
    = segSum384 (U (Proc.devRef .tc main_arg2)) (U (Proc.devRef .tc main_v16)) := by
  after_results
  rfl

theorem biasRow1 : StableHlo.after (hostOps1_1 (F := F)) U (Proc.devRef .tc main_v20)
    = shapeCast S1x384 (U (Proc.devRef .tc main_arg4) : FVec F S384 .f32) shapeCasts_S384_S1x384 := by
  after_results
  rfl

/-! ## The second gather -/

abbrev written2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v22]

theorem keep2 (r : Ref sig .tc) (hr : r ∉ written2) :
    StableHlo.after (hostOps2 (F := F)) U (Proc.devRef .tc r) = U (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hr (h ▸ by decide))))

theorem take2 : StableHlo.after (hostOps2 (F := F)) U (Proc.devRef .tc main_v22)
    = take256 (U (Proc.devRef .tc main_v21)) (U (Proc.devRef .tc main_arg1)) := by
  after_results_simp
  simp only [TRef.ofBuf_toBuf]
  unfold take256 inRange wrapIdx
  simp only [TRef.toBuf, TRef.ofBuf, cast_eq]

/-! ## The second segment sum, and the last biases as rows -/

abbrev written2_1 : List (Ref sig .tc) := [main_cst_5, main_v23, main_v24, main_v25, main_v26, main_v27]

theorem keep2_1 (r : Ref sig .tc) (hr : r ∉ written2_1) :
    StableHlo.after (hostOps2_1 (F := F)) U (Proc.devRef .tc r) = U (Proc.devRef .tc r) :=
  StableHlo.after_of_forall_not_mem (b := Proc.devRef .tc r) _ _ (List.forall_iff_forall_mem.mp (by
    simp only [hostOps2_1, List.Forall, StableHlo.nullary_writes, StableHlo.unary_writes, StableHlo.binary_writes,
      StableHlo.ternary_writes, StableHlo.reshape_writes, Finset.mem_singleton]
    repeat' apply And.intro
    all_goals exact StableHlo.devRef_ne_of_ne (fun h => hr (h ▸ by decide))))

theorem agg2 : StableHlo.after (hostOps2_1 (F := F)) U (Proc.devRef .tc main_v25)
    = segSum256 (U (Proc.devRef .tc main_arg2)) (U (Proc.devRef .tc main_v22)) := by
  after_results
  rfl

theorem biasRow2 : StableHlo.after (hostOps2_1 (F := F)) U (Proc.devRef .tc main_v26)
    = shapeCast S1x256 (U (Proc.devRef .tc main_arg6) : FVec F S256 .f32) shapeCasts_S256_S1x256 := by
  after_results
  rfl

theorem classBiasRow : StableHlo.after (hostOps2_1 (F := F)) U (Proc.devRef .tc main_v27)
    = shapeCast S1x7 (U (Proc.devRef .tc main_arg8) : FVec F S7 .f32) shapeCasts_S7_S1x7 := by
  after_results
  rfl

end Cert.KernelIdeal.Host

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibPlainDotRows.lean ====
/-
  A ROW BLOCK OF A PLAIN MATRIX PRODUCT IS THE PRODUCT'S ROWS, over the extended reals.

  For `[M, K] × [K, N] → [M, N]` (`DotDims.plain M K N`) the host's `dot_general` at row `r` and column `j` is the sum over
  `k` of `X[r, k] · W[k, j]` (`dotGeneral_apply`). A kernel that multiplies a block of `Mb` rows of `X` by the whole of `W`,
  accumulating into zero, computes at the block's row `p` the same sum as the whole product at the row of `X` that row `p` of the
  block is (`matmul_zero_rows_eq_dotGeneral`): every term of the two sums is the same product, so nothing of extended-real
  arithmetic beyond `0 + s = s` is used and the fact holds at the infinities too.
-/
import Idealize.ShloMosaic.PureOps.Ideal.Laws
import Idealize.ShloMosaic.Lib.ValueIdx
import Idealize.ShloMosaic.Lib.KernelVsHost
import proofs.«411039_j50122268344779_1_alg».proof.Proof.LibPlainDot

noncomputable section

open scoped BigOperators

namespace Idealize.ShloMosaic.PlainDot

open Idealize.ShloMosaic Idealize.ShloMosaic.ValueIdx

/-- THE HOST'S PRODUCT AT `(r, j)`: `∑ₖ X[r, k] · W[k, j]` (stated over `Host.dotGeneral`, the name a printed reference applies). -/
theorem dotGeneral_apply (M K N : Nat) {φ₁ φ₂ : FTy} (prec : Option ContractPrecision)
    (X : FVec Ideal (⟨2, ![M, K]⟩ : Shape) φ₁) (W : FVec Ideal (⟨2, ![K, N]⟩ : Shape) φ₂) (r : Fin M) (j : Fin N) :
    Host.dotGeneral (F := Ideal) (DotDims.plain M K N) prec X W (ix2 r j) = ∑ k : Fin K, X (ix2 r k) * W (ix2 k j) := by
  rw [← matmul_zero_eq_dotGeneral]
  exact matmul_zero_apply M K N prec X W r j

/-- A BLOCK OF ROWS: if row `p` of the block `Xb` is row `r` of `X` (`hrow`) and the block's right operand is `W` entry by entry
    (`hw`), the block's product accumulated into zero, at `(p, j)`, is the whole product at `(r, j)`. -/
theorem matmul_zero_rows_eq_dotGeneral (Mb M K N : Nat) {φ₁ φ₂ : FTy} (prec : Option ContractPrecision)
    (Xb : FVec Ideal (⟨2, ![Mb, K]⟩ : Shape) φ₁) (Wb : FVec Ideal (⟨2, ![K, N]⟩ : Shape) φ₂)
    (X : FVec Ideal (⟨2, ![M, K]⟩ : Shape) φ₁) (W : FVec Ideal (⟨2, ![K, N]⟩ : Shape) φ₂)
    (p : Fin Mb) (r : Fin M) (j : Fin N)
    (hrow : ∀ k : Fin K, Xb (ix2 p k) = X (ix2 r k)) (hw : ∀ k : Fin K, Wb (ix2 k j) = W (ix2 k j)) :
    matmul (F := Ideal) (DotDims.plain Mb K N) prec Xb Wb (constant (⟨2, ![Mb, N]⟩ : Shape) .f32 0x00000000#32) (ix2 p j)
      = Host.dotGeneral (F := Ideal) (DotDims.plain M K N) prec X W (ix2 r j) := by
  rw [matmul_zero_apply, dotGeneral_apply]
  exact Finset.sum_congr rfl fun k _ => by rw [hrow k, hw k]

end Idealize.ShloMosaic.PlainDot

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.Layer0.lean ====
/-
THE FIRST KERNEL'S OUTPUT ARRAY: the features times the first weights, each row multiplied by that node's out-degree factor.

  The kernel runs on fifty grid points; point t multiplies rows 1000 t … 1000 t + 999 of the features by the whole weight
  matrix (accumulating into zero) and multiplies row p of the product by entry p of its block of the factor column. Row p
  of that block product is row 1000 t + p of the whole product, sum for sum, so what point t writes back is block t of the
  one array (X W) ⊙ s; the fifty blocks of a thousand rows tile the 50000 rows, so after the region the output array is that
  array — whatever the region found in its three input arrays.
-/
import proofs.«411039_j50122268344779_1_alg».proof.Proof.Gen.KernelIdeal.Frame
import proofs.«411039_j50122268344779_1_alg».proof.Proof.LibPlainDotRows
import proofs.«411039_j50122268344779_1_alg».proof.Proof.LibKeepdimsColumn
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Layer0

open Cert.KernelIdeal Cert.KernelIdeal.Gen

theorem hz : (![0, 0] : Fin 2 → Nat) = fun _ => 0 := funext fun a => by fin_cases a <;> rfl

theorem dot_eq : dot_S1000x1433_S1433x384_S1000x384_1_0_0_1_n_n = DotDims.plain 1000 1433 384 := rfl

/-- The projection scaled by rows: the product of the features with the weights, row i multiplied by the column s at row i. -/
def scaledProduct (hb : S50000x1.BroadcastsInDim S50000x384 (![0, 1] : Fin 2 → Fin 2))
    (x : FVec Ideal S50000x1433 .f32) (w : FVec Ideal S1433x384 .f32) (s : FVec Ideal S50000x1 .f32) : FVec Ideal S50000x384 .f32 :=
  mulf (Host.dotGeneral (F := Ideal) (DotDims.plain 50000 1433 384) none x w) (broadcastInDim S50000x384 ![0, 1] hb s)

theorem scaledProduct_apply (hb : S50000x1.BroadcastsInDim S50000x384 (![0, 1] : Fin 2 → Fin 2))
    (x : FVec Ideal S50000x1433 .f32) (w : FVec Ideal S1433x384 .f32) (s : FVec Ideal S50000x1 .f32) (i : Fin 50000) (j : Fin 384) :
    scaledProduct hb x w s (ix2 i j)
      = Host.dotGeneral (F := Ideal) (DotDims.plain 50000 1433 384) none x w (ix2 i j) * s (ix2 i (0 : Fin 1)) := by
  unfold scaledProduct
  rw [mulf_apply]
  refine congrArg (fun z => _ * z) ?_
  refine broadcastInDim_apply _ hb s (ix2 i j) (ix2 i (0 : Fin 1)) fun a => ?_
  match a with
  | ⟨0, _⟩ => rfl
  | ⟨1, _⟩ => rfl

/-- The body's stored value at row p and column q of the block. -/
theorem pay_apply (x0 : Vec Ideal S1000x1433 .f32) (x1 : Vec Ideal S1433x384 .f32) (x2 : Vec Ideal S1000x1 .f32) (p : Fin 1000) (q : Fin 384) :
    (k0_pay1 (F := Ideal) x0 x1 x2) (ix2 p q)
      = matmul (F := Ideal) (DotDims.plain 1000 1433 384) none (truncf .bf16 x0 bitsLt_bf16_f32 : FVec Ideal S1000x1433 .bf16)
          (truncf .bf16 x1 bitsLt_bf16_f32 : FVec Ideal S1433x384 .bf16) (constant S1000x384 .f32 0x00000000#32) (ix2 p q)
        * x2 (ix2 p (0 : Fin 1)) := by
  unfold k0_pay1
  rw [mulf_apply, dot_eq, shapeCast_self]
  refine congrArg (fun z => _ * z) ?_
  exact KeepdimsColumn.broadcastTo_a1_ab_apply x2 broadcasts_S1000x1_S1000x384 p q

variable (V : (c : Dev nD) → (b : Ref sig .tc) → Buf (Elt Ideal) ((c : Thread nD τ).loc b))

/-- The grid's index maps: the row-block windows sit at block row t, column block 0; the weights' window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the features' block at point t is row 1000 t + p of the features. -/
theorem xblk_apply (c : Dev nD) (t : Fin cfg0.N) (p : Fin 1000) (k : Fin 1433) (r : Fin 50000) (hr : r.val = 1000 * t.val + p.val) :
    (iblk0 V c 0 t : Vec Ideal S1000x1433 .f32) (ix2 p k) = (V c main_arg0 : S50000x1433.Idx → Elt Ideal .f32) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * p.val = r.val; rw [e0, hr]; omega
  | ⟨1, _⟩ => show win0_0.index t (1 : Fin 2) * 1433 + 1 * k.val = k.val; rw [e1]; omega

/-- The weights' block is the weights. -/
theorem wblk_apply (c : Dev nD) (t : Fin cfg0.N) (k : Fin 1433) (q : Fin 384) :
    (iblk0 V c 1 t : Vec Ideal S1433x384 .f32) (ix2 k q) = (V c main_arg3 : S1433x384.Idx → Elt Ideal .f32) (ix2 k q) := by
  obtain ⟨-, -, e0, e1, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 1433 + 1 * k.val = k.val; rw [e0]; omega
  | ⟨1, _⟩ => show win0_1.index t (1 : Fin 2) * 384 + 1 * q.val = q.val; rw [e1]; omega

/-- Row p of the scale column's block at point t is row 1000 t + p of the column. -/
theorem sblk_apply (c : Dev nD) (t : Fin cfg0.N) (p : Fin 1000) (r : Fin 50000) (hr : r.val = 1000 * t.val + p.val) :
    (iblk0 V c 2 t : Vec Ideal S1000x1 .f32) (ix2 p (0 : Fin 1)) = (V c main_v10 : S50000x1.Idx → Elt Ideal .f32) (ix2 r (0 : Fin 1)) := by
  obtain ⟨-, -, -, -, e0, e1, -⟩ := idx_facts t
  unfold iblk0
  rw [View.read_apply]
  show V c main_v10 _ = V c main_v10 _
  refine congrArg (V c main_v10) (funext fun a => Fin.ext ?_)
  match a with
  | ⟨0, _⟩ => show win0_2.index t (0 : Fin 2) * 1000 + 1 * p.val = r.val; rw [e0, hr]; omega
  | ⟨1, _⟩ => show win0_2.index t (1 : Fin 2) * 1 + 1 * 0 = 0; rw [e1]

/-- What point t writes back is block t of the scaled product of the arrays the region finds. -/
theorem flushed_eq (hb : S50000x1.BroadcastsInDim S50000x384 (![0, 1] : Fin 2 → Fin 2)) (c : Dev nD) (t : Fin cfg0.N) :
    (dat0 V c).flushed 3 t = ((cfg0.win 3).blk t).view.read (Elt Ideal)
      (scaledProduct hb (V c main_arg0) (V c main_arg3) (V c main_v10)) := by
  obtain ⟨-, -, -, -, -, -, e0, e1⟩ := idx_facts t
  have ht : t.val < 50 := lt_of_lt_of_eq t.isLt N_0
  show (cfg0.win 3).cut (grid0.coords t) ((dat0 V c).after 3 t) = _
  rw [after0_3]
  unfold out0_3
  rw [View.canon_unit_zero hz]
  simp only [View.ld_unit_zero (S := S1000x1433) hz, View.ld_unit_zero (S := S1433x384) hz, View.ld_unit_zero (S := S1000x1) hz]
  funext y
  obtain ⟨p, q, rfl⟩ : ∃ (p : Fin 1000) (q : Fin 384), y = ix2 p q := ⟨y 0, y 1, eq_ix2 y⟩
  rw [View.read_apply]
  have hemb : ((cfg0.win 3).blk t).view.emb (ix2 p q) = ix2 (⟨1000 * t.val + p.val, by omega⟩ : Fin 50000) q := by
    funext a; apply Fin.ext
    match a with
    | ⟨0, _⟩ => show win0_3.index t (0 : Fin 2) * 1000 + 1 * p.val = 1000 * t.val + p.val; rw [e0]; omega
    | ⟨1, _⟩ => show win0_3.index t (1 : Fin 2) * 384 + 1 * q.val = q.val; rw [e1]; omega
  rw [hemb, scaledProduct_apply]
  show (k0_pay1 (F := Ideal) (iblk0 V c 0 t) (iblk0 V c 1 t) (iblk0 V c 2 t)) (ix2 p q) = _
  rw [pay_apply, sblk_apply V c t p ⟨1000 * t.val + p.val, by omega⟩ rfl]
  refine congrArg (fun z => z * _) ?_
  exact PlainDot.matmul_zero_rows_eq_dotGeneral 1000 50000 1433 384 none _ _ _ _ p ⟨1000 * t.val + p.val, by omega⟩ q
    (fun k => by rw [truncf_apply]; exact xblk_apply V c t p k _ rfl)
    (fun k => by rw [truncf_apply]; exact wblk_apply V c t k q)

/-- An index of the result array is in point t's block iff each coordinate is in the block's range on its axis. -/
theorem mem_blk (t : Fin cfg0.N) (i : S50000x384.Idx) :
    i ∈ ((cfg0.win 3).blk t).view.set ↔ ∀ a : Fin 2, win0_3.index t a * S1000x384.size a ≤ (i a).val ∧ (i a).val < win0_3.index t a * S1000x384.size a + S1000x384.size a := by
  show i ∈ ((View.whole main_v15).slice (win0_3.rect t)).set ↔ _
  rw [View.set_slice_whole, Rect.mem_set_unit]
  exact Iff.rfl

/-- Row r of the result lies in the block of point r / 1000: the fifty blocks of a thousand rows tile the array. -/
theorem cover (i : S50000x384.Idx) : ∃ t : Fin cfg0.N, (cfg0.win 3).flush t = true ∧ i ∈ ((cfg0.win 3).blk t).view.set := by
  have hi0 : (i 0).val < 50000 := (i 0).isLt
  have hi1 : (i 1).val < 384 := (i 1).isLt
  have hN : cfg0.N = 50 := N_0
  have hlt : (i 0).val / 1000 < cfg0.N := by rw [hN]; omega
  obtain ⟨-, -, -, -, -, -, e0, e1⟩ := idx_facts ⟨(i 0).val / 1000, hlt⟩
  refine ⟨⟨(i 0).val / 1000, hlt⟩, flush0_3 _, ?_⟩
  rw [mem_blk]
  intro a
  match a with
  | ⟨0, _⟩ =>
    show win0_3.index ⟨(i 0).val / 1000, hlt⟩ (0 : Fin 2) * 1000 ≤ (i 0).val ∧ (i 0).val < win0_3.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win0_3.index ⟨(i 0).val / 1000, hlt⟩ (1 : Fin 2) * 384 ≤ (i 1).val ∧ (i 1).val < win0_3.index ⟨(i 0).val / 1000, hlt⟩ (1 : Fin 2) * 384 + 384
    rw [e1]; omega

/-- After the region the result array holds the scaled product of the arrays the region found. -/
theorem final (hb : S50000x1.BroadcastsInDim S50000x384 (![0, 1] : Fin 2 → Fin 2)) (c : Dev nD) :
    (dat0 V c).arrAt 3 cfg0.N = scaledProduct hb (V c main_arg0) (V c main_arg3) (V c main_v10) :=
  (dat0 V c).arrAt_eq_of_cover 3 _ (fun t _ => flushed_eq V hb c t) cover

end Cert.KernelIdeal.Layer0

end
-- ==== Proof.Layer1.lean ====
/-
THE SECOND KERNEL'S OUTPUT ARRAY: the hidden rows max(A ⊙ d + b, 0), times the second weights, each row multiplied by
  that node's out-degree factor.

  Point t of fifty forms the hidden rows of its block from rows 1000 t … 1000 t + 999 of the aggregated array A, of the
  in-degree column d, and from the bias row b, multiplies them by the whole weight matrix and scales row p by entry p of
  its block of the out-degree column. Entry (p, k) of the block's hidden rows is entry (1000 t + p, k) of the whole hidden
  array, so the block product's row p is row 1000 t + p of the whole product; the blocks tile the array.
-/
import proofs.«411039_j50122268344779_1_alg».proof.Proof.Gen.KernelIdeal.Frame
import proofs.«411039_j50122268344779_1_alg».proof.Proof.LibPlainDotRows
import proofs.«411039_j50122268344779_1_alg».proof.Proof.LibKeepdimsColumn
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Layer1

open Cert.KernelIdeal Cert.KernelIdeal.Gen

theorem hz : (![0, 0] : Fin 2 → Nat) = fun _ => 0 := funext fun a => by fin_cases a <;> rfl

theorem dot_eq : dot_S1000x384_S384x256_S1000x256_1_0_0_1_n_n = DotDims.plain 1000 384 256 := rfl

/-- The first layer's output from the aggregated rows: each row scaled by its in-degree factor, the bias added,
    negative entries set to zero. -/
def hidden (hd : S50000x1.BroadcastsInDim S50000x384 (![0, 1] : Fin 2 → Fin 2))
    (hbias : S1x384.BroadcastsInDim S50000x384 (![0, 1] : Fin 2 → Fin 2))
    (hzero : S_.BroadcastsInDim S50000x384 (![] : Fin 0 → Fin 2))
    (agg : FVec Ideal S50000x384 .f32) (d : FVec Ideal S50000x1 .f32) (b : FVec Ideal S1x384 .f32) : FVec Ideal S50000x384 .f32 :=
  maximumf (addf (mulf agg (broadcastInDim S50000x384 ![0, 1] hd d)) (broadcastInDim S50000x384 ![0, 1] hbias b))
    (broadcastInDim S50000x384 ![] hzero (constant (F := Ideal) S_ .f32 0x00000000#32))

theorem hidden_apply (hd : S50000x1.BroadcastsInDim S50000x384 (![0, 1] : Fin 2 → Fin 2))
    (hbias : S1x384.BroadcastsInDim S50000x384 (![0, 1] : Fin 2 → Fin 2))
    (hzero : S_.BroadcastsInDim S50000x384 (![] : Fin 0 → Fin 2))
    (agg : FVec Ideal S50000x384 .f32) (d : FVec Ideal S50000x1 .f32) (b : FVec Ideal S1x384 .f32) (i : Fin 50000) (k : Fin 384) :
    hidden hd hbias hzero agg d b (ix2 i k)
      = max (agg (ix2 i k) * d (ix2 i (0 : Fin 1)) + b (ix2 (0 : Fin 1) k)) (Ideal.ofBits .f32 0x00000000#32) := by
  unfold hidden
  rw [maximumf_apply, addf_apply, mulf_apply]
  have e1 : broadcastInDim S50000x384 ![0, 1] hd d (ix2 i k) = d (ix2 i (0 : Fin 1)) :=
    broadcastInDim_apply _ hd d (ix2 i k) (ix2 i (0 : Fin 1)) fun a => by
      match a with
      | ⟨0, _⟩ => rfl
      | ⟨1, _⟩ => rfl
  have e2 : broadcastInDim S50000x384 ![0, 1] hbias b (ix2 i k) = b (ix2 (0 : Fin 1) k) :=
    broadcastInDim_apply _ hbias b (ix2 i k) (ix2 (0 : Fin 1) k) fun a => by
      match a with
      | ⟨0, _⟩ => rfl
      | ⟨1, _⟩ => rfl
  have e3 : broadcastInDim S50000x384 ![] hzero (constant (F := Ideal) S_ .f32 0x00000000#32) (ix2 i k) = Ideal.ofBits .f32 0x00000000#32 :=
    (broadcastInDim_apply _ hzero (constant (F := Ideal) S_ .f32 0x00000000#32) (ix2 i k) ix0 fun a => a.elim0).trans rfl
  rw [e1, e2, e3]

/-- The second layer's projection scaled by rows: the hidden rows times the weights, row i multiplied by the column s at row i. -/
def scaledProduct (hs : S50000x1.BroadcastsInDim S50000x256 (![0, 1] : Fin 2 → Fin 2))
    (h : FVec Ideal S50000x384 .f32) (w : FVec Ideal S384x256 .f32) (s : FVec Ideal S50000x1 .f32) : FVec Ideal S50000x256 .f32 :=
  mulf (Host.dotGeneral (F := Ideal) (DotDims.plain 50000 384 256) none h w) (broadcastInDim S50000x256 ![0, 1] hs s)

theorem scaledProduct_apply (hs : S50000x1.BroadcastsInDim S50000x256 (![0, 1] : Fin 2 → Fin 2))
    (h : FVec Ideal S50000x384 .f32) (w : FVec Ideal S384x256 .f32) (s : FVec Ideal S50000x1 .f32) (i : Fin 50000) (j : Fin 256) :
    scaledProduct hs h w s (ix2 i j)
      = Host.dotGeneral (F := Ideal) (DotDims.plain 50000 384 256) none h w (ix2 i j) * s (ix2 i (0 : Fin 1)) := by
  unfold scaledProduct
  rw [mulf_apply]
  refine congrArg (fun z => _ * z) ?_
  refine broadcastInDim_apply _ hs s (ix2 i j) (ix2 i (0 : Fin 1)) fun a => ?_
  match a with
  | ⟨0, _⟩ => rfl
  | ⟨1, _⟩ => rfl

/-- The block's hidden rows as the body computes them, before the product. -/
def hiddenBlk (x0 : Vec Ideal S1000x384 .f32) (x1 : Vec Ideal S1000x1 .f32) (x2 : Vec Ideal S1x384 .f32) : FVec Ideal S1000x384 .f32 :=
  maximumf (addf (mulf (shapeCast S1000x384 x0 shapeCasts_S1000x384_S1000x384)
      (broadcastTo S1000x384 (shapeCast S1000x1 x1 shapeCasts_S1000x1_S1000x1) broadcasts_S1000x1_S1000x384))
      (broadcastTo S1000x384 (shapeCast S1x384 x2 shapeCasts_S1x384_S1x384) broadcasts_S1x384_S1000x384))
    (broadcast S1000x384 (Scalar.ofBits (F := Ideal) .f32 0x00000000#32))

theorem hiddenBlk_apply (x0 : Vec Ideal S1000x384 .f32) (x1 : Vec Ideal S1000x1 .f32) (x2 : Vec Ideal S1x384 .f32) (p : Fin 1000) (k : Fin 384) :
    hiddenBlk x0 x1 x2 (ix2 p k)
      = max (x0 (ix2 p k) * x1 (ix2 p (0 : Fin 1)) + x2 (ix2 (0 : Fin 1) k)) (Ideal.ofBits .f32 0x00000000#32) := by
  unfold hiddenBlk
  rw [maximumf_apply, addf_apply, mulf_apply, shapeCast_self, shapeCast_self, shapeCast_self, broadcast_apply,
    KeepdimsColumn.broadcastTo_a1_ab_apply x1 broadcasts_S1000x1_S1000x384 p k,
    broadcastTo_1b_ab_apply x2 broadcasts_S1x384_S1000x384 p k]
  rfl

/-- The body's stored value at row p and column q of the block. -/
theorem pay_apply (x0 : Vec Ideal S1000x384 .f32) (x1 : Vec Ideal S1000x1 .f32) (x2 : Vec Ideal S1x384 .f32) (x3 : Vec Ideal S384x256 .f32)
    (x4 : Vec Ideal S1000x1 .f32) (p : Fin 1000) (q : Fin 256) :
    (k1_pay1 (F := Ideal) x0 x1 x2 x3 x4) (ix2 p q)
      = matmul (F := Ideal) (DotDims.plain 1000 384 256) none (truncf .bf16 (hiddenBlk x0 x1 x2) bitsLt_bf16_f32 : FVec Ideal S1000x384 .bf16)
          (truncf .bf16 x3 bitsLt_bf16_f32 : FVec Ideal S384x256 .bf16) (constant S1000x256 .f32 0x00000000#32) (ix2 p q)
        * x4 (ix2 p (0 : Fin 1)) := by
  unfold k1_pay1 hiddenBlk
  rw [mulf_apply, dot_eq, shapeCast_self x4]
  refine congrArg (fun z => _ * z) ?_
  exact KeepdimsColumn.broadcastTo_a1_ab_apply x4 broadcasts_S1000x1_S1000x256 p q

variable (V : (c : Dev nD) → (b : Ref sig .tc) → Buf (Elt Ideal) ((c : Thread nD τ).loc b))

/-- The grid's index maps: the row-block windows sit at block row t, column block 0; the bias's and the weights' windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of the aggregated rows' block at point t is row 1000 t + p of the aggregated array. -/
theorem aggblk_apply (c : Dev nD) (t : Fin cfg1.N) (p : Fin 1000) (k : Fin 384) (r : Fin 50000) (hr : r.val = 1000 * t.val + p.val) :
    (iblk1 V c 0 t : Vec Ideal S1000x384 .f32) (ix2 p k) = (V c main_v19 : S50000x384.Idx → Elt Ideal .f32) (ix2 r k) := by
  obtain ⟨e0, e1, -⟩ := idx_facts t
  unfold iblk1
  rw [View.read_apply]
  show V c main_v19 _ = V c main_v19 _
  refine congrArg (V c main_v19) (funext fun a => Fin.ext ?_)
  match a with
  | ⟨0, _⟩ => show win1_0.index t (0 : Fin 2) * 1000 + 1 * p.val = r.val; rw [e0, hr]; omega
  | ⟨1, _⟩ => show win1_0.index t (1 : Fin 2) * 384 + 1 * k.val = k.val; rw [e1]; omega

/-- Row p of the in-degree column's block at point t is row 1000 t + p of the column. -/
theorem dblk_apply (c : Dev nD) (t : Fin cfg1.N) (p : Fin 1000) (r : Fin 50000) (hr : r.val = 1000 * t.val + p.val) :
    (iblk1 V c 1 t : Vec Ideal S1000x1 .f32) (ix2 p (0 : Fin 1)) = (V c main_v14 : S50000x1.Idx → Elt Ideal .f32) (ix2 r (0 : Fin 1)) := by
  obtain ⟨-, -, e0, e1, -⟩ := idx_facts t
  unfold iblk1
  rw [View.read_apply]
  show V c main_v14 _ = V c main_v14 _
  refine congrArg (V c main_v14) (funext fun a => Fin.ext ?_)
  match a with
  | ⟨0, _⟩ => show win1_1.index t (0 : Fin 2) * 1000 + 1 * p.val = r.val; rw [e0, hr]; omega
  | ⟨1, _⟩ => show win1_1.index t (1 : Fin 2) * 1 + 1 * 0 = 0; rw [e1]

/-- The bias row's block is the bias row. -/
theorem bblk_apply (c : Dev nD) (t : Fin cfg1.N) (k : Fin 384) :
    (iblk1 V c 2 t : Vec Ideal S1x384 .f32) (ix2 (0 : Fin 1) k) = (V c main_v20 : S1x384.Idx → Elt Ideal .f32) (ix2 (0 : Fin 1) k) := by
  obtain ⟨-, -, -, -, e0, e1, -⟩ := idx_facts t
  unfold iblk1
  rw [View.read_apply]
  show V c main_v20 _ = V c main_v20 _
  refine congrArg (V c main_v20) (funext fun a => Fin.ext ?_)
  match a with
  | ⟨0, _⟩ => show win1_2.index t (0 : Fin 2) * 1 + 1 * 0 = 0; rw [e0]
  | ⟨1, _⟩ => show win1_2.index t (1 : Fin 2) * 384 + 1 * k.val = k.val; rw [e1]; omega

/-- The weights' block is the weights. -/
theorem wblk_apply (c : Dev nD) (t : Fin cfg1.N) (k : Fin 384) (q : Fin 256) :
    (iblk1 V c 3 t : Vec Ideal S384x256 .f32) (ix2 k q) = (V c main_arg5 : S384x256.Idx → Elt Ideal .f32) (ix2 k q) := by
  obtain ⟨-, -, -, -, -, -, e0, e1, -⟩ := idx_facts t
  unfold iblk1
  rw [View.read_apply]
  show V c main_arg5 _ = V c main_arg5 _
  refine congrArg (V c main_arg5) (funext fun a => Fin.ext ?_)
  match a with
  | ⟨0, _⟩ => show win1_3.index t (0 : Fin 2) * 384 + 1 * k.val = k.val; rw [e0]; omega
  | ⟨1, _⟩ => show win1_3.index t (1 : Fin 2) * 256 + 1 * q.val = q.val; rw [e1]; omega

/-- Row p of the out-degree column's block at point t is row 1000 t + p of the column. -/
theorem sblk_apply (c : Dev nD) (t : Fin cfg1.N) (p : Fin 1000) (r : Fin 50000) (hr : r.val = 1000 * t.val + p.val) :
    (iblk1 V c 4 t : Vec Ideal S1000x1 .f32) (ix2 p (0 : Fin 1)) = (V c main_v10 : S50000x1.Idx → Elt Ideal .f32) (ix2 r (0 : Fin 1)) := by
  obtain ⟨-, -, -, -, -, -, -, -, e0, e1, -⟩ := idx_facts t
  unfold iblk1
  rw [View.read_apply]
  show V c main_v10 _ = V c main_v10 _
  refine congrArg (V c main_v10) (funext fun a => Fin.ext ?_)
  match a with
  | ⟨0, _⟩ => show win1_4.index t (0 : Fin 2) * 1000 + 1 * p.val = r.val; rw [e0, hr]; omega
  | ⟨1, _⟩ => show win1_4.index t (1 : Fin 2) * 1 + 1 * 0 = 0; rw [e1]

/-- What point t writes back is block t of the scaled product of the hidden rows of the arrays the region finds. -/
theorem flushed_eq (hd : S50000x1.BroadcastsInDim S50000x384 (![0, 1] : Fin 2 → Fin 2))
    (hbias : S1x384.BroadcastsInDim S50000x384 (![0, 1] : Fin 2 → Fin 2))
    (hzero : S_.BroadcastsInDim S50000x384 (![] : Fin 0 → Fin 2))
    (hs : S50000x1.BroadcastsInDim S50000x256 (![0, 1] : Fin 2 → Fin 2)) (c : Dev nD) (t : Fin cfg1.N) :
    (dat1 V c).flushed 5 t = ((cfg1.win 5).blk t).view.read (Elt Ideal)
      (scaledProduct hs (hidden hd hbias hzero (V c main_v19) (V c main_v14) (V c main_v20)) (V c main_arg5) (V c main_v10)) := by
  obtain ⟨-, -, -, -, -, -, -, -, -, -, e0, e1⟩ := idx_facts t
  have ht : t.val < 50 := lt_of_lt_of_eq t.isLt N_1
  show (cfg1.win 5).cut (grid1.coords t) ((dat1 V c).after 5 t) = _
  rw [after1_5]
  unfold out1_5
  rw [View.canon_unit_zero hz]
  simp only [View.ld_unit_zero (S := S1000x384) hz, View.ld_unit_zero (S := S1000x1) hz, View.ld_unit_zero (S := S1x384) hz,
    View.ld_unit_zero (S := S384x256) hz]
  funext y
  obtain ⟨p, q, rfl⟩ : ∃ (p : Fin 1000) (q : Fin 256), y = ix2 p q := ⟨y 0, y 1, eq_ix2 y⟩
  rw [View.read_apply]
  have hemb : ((cfg1.win 5).blk t).view.emb (ix2 p q) = ix2 (⟨1000 * t.val + p.val, by omega⟩ : Fin 50000) q := by
    funext a; apply Fin.ext
    match a with
    | ⟨0, _⟩ => show win1_5.index t (0 : Fin 2) * 1000 + 1 * p.val = 1000 * t.val + p.val; rw [e0]; omega
    | ⟨1, _⟩ => show win1_5.index t (1 : Fin 2) * 256 + 1 * q.val = q.val; rw [e1]; omega
  rw [hemb, scaledProduct_apply]
  show (k1_pay1 (F := Ideal) (iblk1 V c 0 t) (iblk1 V c 1 t) (iblk1 V c 2 t) (iblk1 V c 3 t) (iblk1 V c 4 t)) (ix2 p q) = _
  rw [pay_apply, sblk_apply V c t p ⟨1000 * t.val + p.val, by omega⟩ rfl]
  refine congrArg (fun z => z * _) ?_
  refine PlainDot.matmul_zero_rows_eq_dotGeneral 1000 50000 384 256 none _ _ _ _ p ⟨1000 * t.val + p.val, by omega⟩ q
    (fun k => ?_) (fun k => by rw [truncf_apply]; exact wblk_apply V c t k q)
  rw [truncf_apply, hiddenBlk_apply, hidden_apply, aggblk_apply V c t p k ⟨1000 * t.val + p.val, by omega⟩ rfl,
    dblk_apply V c t p ⟨1000 * t.val + p.val, by omega⟩ rfl, bblk_apply V c t k]

/-- An index of the result array is in point t's block iff each coordinate is in the block's range on its axis. -/
theorem mem_blk (t : Fin cfg1.N) (i : S50000x256.Idx) :
    i ∈ ((cfg1.win 5).blk t).view.set ↔ ∀ a : Fin 2, win1_5.index t a * S1000x256.size a ≤ (i a).val ∧ (i a).val < win1_5.index t a * S1000x256.size a + S1000x256.size a := by
  show i ∈ ((View.whole main_v21).slice (win1_5.rect t)).set ↔ _
  rw [View.set_slice_whole, Rect.mem_set_unit]
  exact Iff.rfl

/-- Row r of the result lies in the block of point r / 1000: the fifty blocks of a thousand rows tile the array. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 50 := N_1
  have hlt : (i 0).val / 1000 < cfg1.N := by rw [hN]; omega
  obtain ⟨-, -, -, -, -, -, -, -, -, -, e0, e1⟩ := idx_facts ⟨(i 0).val / 1000, hlt⟩
  refine ⟨⟨(i 0).val / 1000, hlt⟩, flush1_5 _, ?_⟩
  rw [mem_blk]
  intro a
  match a with
  | ⟨0, _⟩ =>
    show win1_5.index ⟨(i 0).val / 1000, hlt⟩ (0 : Fin 2) * 1000 ≤ (i 0).val ∧ (i 0).val < win1_5.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win1_5.index ⟨(i 0).val / 1000, hlt⟩ (1 : Fin 2) * 256 ≤ (i 1).val ∧ (i 1).val < win1_5.index ⟨(i 0).val / 1000, hlt⟩ (1 : Fin 2) * 256 + 256
    rw [e1]; omega

/-- After the region the result array holds the scaled product of the hidden rows of the arrays the region found. -/
theorem final (hd : S50000x1.BroadcastsInDim S50000x384 (![0, 1] : Fin 2 → Fin 2))
    (hbias : S1x384.BroadcastsInDim S50000x384 (![0, 1] : Fin 2 → Fin 2))
    (hzero : S_.BroadcastsInDim S50000x384 (![] : Fin 0 → Fin 2))
    (hs : S50000x1.BroadcastsInDim S50000x256 (![0, 1] : Fin 2 → Fin 2)) (c : Dev nD) :
    (dat1 V c).arrAt 5 cfg1.N
      = scaledProduct hs (hidden hd hbias hzero (V c main_v19) (V c main_v14) (V c main_v20)) (V c main_arg5) (V c main_v10) :=
  (dat1 V c).arrAt_eq_of_cover 5 _ (fun t _ => flushed_eq V hd hbias hzero hs c t) cover

end Cert.KernelIdeal.Layer1

end
-- ==== Proof.Layer2.lean ====
/-
THE THIRD KERNEL'S OUTPUT ARRAY: the embedding rows A ⊙ d + b, times the class weights, the class bias added to every row.

  Point t of fifty forms the embedding rows of its block from rows 1000 t … 1000 t + 999 of the aggregated array A and of
  the in-degree column d and from the bias row b, multiplies them by the whole class-weight matrix and adds the class bias
  row. Entry (p, k) of the block's embedding is entry (1000 t + p, k) of the whole embedding, so the block product's row p
  is row 1000 t + p of the whole product; the blocks tile the array.
-/
import proofs.«411039_j50122268344779_1_alg».proof.Proof.Gen.KernelIdeal.Frame
import proofs.«411039_j50122268344779_1_alg».proof.Proof.LibPlainDotRows
import proofs.«411039_j50122268344779_1_alg».proof.Proof.LibKeepdimsColumn
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.KernelIdeal.Layer2

open Cert.KernelIdeal Cert.KernelIdeal.Gen

theorem hz : (![0, 0] : Fin 2 → Nat) = fun _ => 0 := funext fun a => by fin_cases a <;> rfl

theorem dot_eq : dot_S1000x256_S256x7_S1000x7_1_0_0_1_n_n = DotDims.plain 1000 256 7 := rfl

/-- The second layer's output from the aggregated rows: each row scaled by its in-degree factor, the bias added. -/
def embedding (hd : S50000x1.BroadcastsInDim S50000x256 (![0, 1] : Fin 2 → Fin 2))
    (hbias : S1x256.BroadcastsInDim S50000x256 (![0, 1] : Fin 2 → Fin 2))
    (agg : FVec Ideal S50000x256 .f32) (d : FVec Ideal S50000x1 .f32) (b : FVec Ideal S1x256 .f32) : FVec Ideal S50000x256 .f32 :=
  addf (mulf agg (broadcastInDim S50000x256 ![0, 1] hd d)) (broadcastInDim S50000x256 ![0, 1] hbias b)

theorem embedding_apply (hd : S50000x1.BroadcastsInDim S50000x256 (![0, 1] : Fin 2 → Fin 2))
    (hbias : S1x256.BroadcastsInDim S50000x256 (![0, 1] : Fin 2 → Fin 2))
    (agg : FVec Ideal S50000x256 .f32) (d : FVec Ideal S50000x1 .f32) (b : FVec Ideal S1x256 .f32) (i : Fin 50000) (k : Fin 256) :
    embedding hd hbias agg d b (ix2 i k) = agg (ix2 i k) * d (ix2 i (0 : Fin 1)) + b (ix2 (0 : Fin 1) k) := by
  unfold embedding
  rw [addf_apply, mulf_apply]
  have e1 : broadcastInDim S50000x256 ![0, 1] hd d (ix2 i k) = d (ix2 i (0 : Fin 1)) :=
    broadcastInDim_apply _ hd d (ix2 i k) (ix2 i (0 : Fin 1)) fun a => by
      match a with
      | ⟨0, _⟩ => rfl
      | ⟨1, _⟩ => rfl
  have e2 : broadcastInDim S50000x256 ![0, 1] hbias b (ix2 i k) = b (ix2 (0 : Fin 1) k) :=
    broadcastInDim_apply _ hbias b (ix2 i k) (ix2 (0 : Fin 1) k) fun a => by
      match a with
      | ⟨0, _⟩ => rfl
      | ⟨1, _⟩ => rfl
  rw [e1, e2]

/-- The classifier: the embedding rows times the class weights, the class bias added to every row. -/
def logits (hc : S1x7.BroadcastsInDim S50000x7 (![0, 1] : Fin 2 → Fin 2))
    (h : FVec Ideal S50000x256 .f32) (w : FVec Ideal S256x7 .f32) (bc : FVec Ideal S1x7 .f32) : FVec Ideal S50000x7 .f32 :=
  addf (Host.dotGeneral (F := Ideal) (DotDims.plain 50000 256 7) none h w) (broadcastInDim S50000x7 ![0, 1] hc bc)

theorem logits_apply (hc : S1x7.BroadcastsInDim S50000x7 (![0, 1] : Fin 2 → Fin 2))
    (h : FVec Ideal S50000x256 .f32) (w : FVec Ideal S256x7 .f32) (bc : FVec Ideal S1x7 .f32) (i : Fin 50000) (j : Fin 7) :
    logits hc h w bc (ix2 i j)
      = Host.dotGeneral (F := Ideal) (DotDims.plain 50000 256 7) none h w (ix2 i j) + bc (ix2 (0 : Fin 1) j) := by
  unfold logits
  rw [addf_apply]
  refine congrArg (fun z => _ + z) ?_
  refine broadcastInDim_apply _ hc bc (ix2 i j) (ix2 (0 : Fin 1) j) fun a => ?_
  match a with
  | ⟨0, _⟩ => rfl
  | ⟨1, _⟩ => rfl

/-- The block's embedding rows as the body computes them, before the product. -/
def embeddingBlk (x0 : Vec Ideal S1000x256 .f32) (x1 : Vec Ideal S1000x1 .f32) (x2 : Vec Ideal S1x256 .f32) : FVec Ideal S1000x256 .f32 :=
  addf (mulf (shapeCast S1000x256 x0 shapeCasts_S1000x256_S1000x256)
      (broadcastTo S1000x256 (shapeCast S1000x1 x1 shapeCasts_S1000x1_S1000x1) broadcasts_S1000x1_S1000x256))
    (broadcastTo S1000x256 (shapeCast S1x256 x2 shapeCasts_S1x256_S1x256) broadcasts_S1x256_S1000x256)

theorem embeddingBlk_apply (x0 : Vec Ideal S1000x256 .f32) (x1 : Vec Ideal S1000x1 .f32) (x2 : Vec Ideal S1x256 .f32) (p : Fin 1000) (k : Fin 256) :
    embeddingBlk x0 x1 x2 (ix2 p k) = x0 (ix2 p k) * x1 (ix2 p (0 : Fin 1)) + x2 (ix2 (0 : Fin 1) k) := by
  unfold embeddingBlk
  rw [addf_apply, mulf_apply, shapeCast_self, shapeCast_self, shapeCast_self,
    KeepdimsColumn.broadcastTo_a1_ab_apply x1 broadcasts_S1000x1_S1000x256 p k,
    broadcastTo_1b_ab_apply x2 broadcasts_S1x256_S1000x256 p k]

/-- The body's stored value at row p and column q of the block. -/
theorem pay_apply (x0 : Vec Ideal S1000x256 .f32) (x1 : Vec Ideal S1000x1 .f32) (x2 : Vec Ideal S1x256 .f32) (x3 : Vec Ideal S256x7 .f32)
    (x4 : Vec Ideal S1x7 .f32) (p : Fin 1000) (q : Fin 7) :
    (k2_pay1 (F := Ideal) x0 x1 x2 x3 x4) (ix2 p q)
      = matmul (F := Ideal) (DotDims.plain 1000 256 7) none (truncf .bf16 (embeddingBlk x0 x1 x2) bitsLt_bf16_f32 : FVec Ideal S1000x256 .bf16)
          (truncf .bf16 x3 bitsLt_bf16_f32 : FVec Ideal S256x7 .bf16) (constant S1000x7 .f32 0x00000000#32) (ix2 p q)
        + x4 (ix2 (0 : Fin 1) q) := by
  unfold k2_pay1 embeddingBlk
  rw [addf_apply, dot_eq, shapeCast_self x4]
  refine congrArg (fun z => _ + z) ?_
  exact broadcastTo_1b_ab_apply x4 broadcasts_S1x7_S1000x7 p q

variable (V : (c : Dev nD) → (b : Ref sig .tc) → Buf (Elt Ideal) ((c : Thread nD τ).loc b))

/-- The grid's index maps: the row-block windows sit at block row t, column block 0; the biases' and the weights' windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the aggregated rows' block at point t is row 1000 t + p of the aggregated array. -/
theorem aggblk_apply (c : Dev nD) (t : Fin cfg2.N) (p : Fin 1000) (k : Fin 256) (r : Fin 50000) (hr : r.val = 1000 * t.val + p.val) :
    (iblk2 V c 0 t : Vec Ideal S1000x256 .f32) (ix2 p k) = (V c main_v25 : S50000x256.Idx → Elt Ideal .f32) (ix2 r k) := by
  obtain ⟨e0, e1, -⟩ := idx_facts t
  unfold iblk2
  rw [View.read_apply]
  show V c main_v25 _ = V c main_v25 _
  refine congrArg (V c main_v25) (funext fun a => Fin.ext ?_)
  match a with
  | ⟨0, _⟩ => show win2_0.index t (0 : Fin 2) * 1000 + 1 * p.val = r.val; rw [e0, hr]; omega
  | ⟨1, _⟩ => show win2_0.index t (1 : Fin 2) * 256 + 1 * k.val = k.val; rw [e1]; omega

/-- Row p of the in-degree column's block at point t is row 1000 t + p of the column. -/
theorem dblk_apply (c : Dev nD) (t : Fin cfg2.N) (p : Fin 1000) (r : Fin 50000) (hr : r.val = 1000 * t.val + p.val) :
    (iblk2 V c 1 t : Vec Ideal S1000x1 .f32) (ix2 p (0 : Fin 1)) = (V c main_v14 : S50000x1.Idx → Elt Ideal .f32) (ix2 r (0 : Fin 1)) := by
  obtain ⟨-, -, e0, e1, -⟩ := idx_facts t
  unfold iblk2
  rw [View.read_apply]
  show V c main_v14 _ = V c main_v14 _
  refine congrArg (V c main_v14) (funext fun a => Fin.ext ?_)
  match a with
  | ⟨0, _⟩ => show win2_1.index t (0 : Fin 2) * 1000 + 1 * p.val = r.val; rw [e0, hr]; omega
  | ⟨1, _⟩ => show win2_1.index t (1 : Fin 2) * 1 + 1 * 0 = 0; rw [e1]

/-- The bias row's block is the bias row. -/
theorem bblk_apply (c : Dev nD) (t : Fin cfg2.N) (k : Fin 256) :
    (iblk2 V c 2 t : Vec Ideal S1x256 .f32) (ix2 (0 : Fin 1) k) = (V c main_v26 : S1x256.Idx → Elt Ideal .f32) (ix2 (0 : Fin 1) k) := by
  obtain ⟨-, -, -, -, e0, e1, -⟩ := idx_facts t
  unfold iblk2
  rw [View.read_apply]
  show V c main_v26 _ = V c main_v26 _
  refine congrArg (V c main_v26) (funext fun a => Fin.ext ?_)
  match a with
  | ⟨0, _⟩ => show win2_2.index t (0 : Fin 2) * 1 + 1 * 0 = 0; rw [e0]
  | ⟨1, _⟩ => show win2_2.index t (1 : Fin 2) * 256 + 1 * k.val = k.val; rw [e1]; omega

/-- The class weights' block is the class weights. -/
theorem wblk_apply (c : Dev nD) (t : Fin cfg2.N) (k : Fin 256) (q : Fin 7) :
    (iblk2 V c 3 t : Vec Ideal S256x7 .f32) (ix2 k q) = (V c main_arg7 : S256x7.Idx → Elt Ideal .f32) (ix2 k q) := by
  obtain ⟨-, -, -, -, -, -, e0, e1, -⟩ := idx_facts t
  unfold iblk2
  rw [View.read_apply]
  show V c main_arg7 _ = V c main_arg7 _
  refine congrArg (V c main_arg7) (funext fun a => Fin.ext ?_)
  match a with
  | ⟨0, _⟩ => show win2_3.index t (0 : Fin 2) * 256 + 1 * k.val = k.val; rw [e0]; omega
  | ⟨1, _⟩ => show win2_3.index t (1 : Fin 2) * 7 + 1 * q.val = q.val; rw [e1]; omega

/-- The class bias row's block is the class bias row. -/
theorem cblk_apply (c : Dev nD) (t : Fin cfg2.N) (q : Fin 7) :
    (iblk2 V c 4 t : Vec Ideal S1x7 .f32) (ix2 (0 : Fin 1) q) = (V c main_v27 : S1x7.Idx → Elt Ideal .f32) (ix2 (0 : Fin 1) q) := by
  obtain ⟨-, -, -, -, -, -, -, -, e0, e1, -⟩ := idx_facts t
  unfold iblk2
  rw [View.read_apply]
  show V c main_v27 _ = V c main_v27 _
  refine congrArg (V c main_v27) (funext fun a => Fin.ext ?_)
  match a with
  | ⟨0, _⟩ => show win2_4.index t (0 : Fin 2) * 1 + 1 * 0 = 0; rw [e0]
  | ⟨1, _⟩ => show win2_4.index t (1 : Fin 2) * 7 + 1 * q.val = q.val; rw [e1]; omega

/-- What point t writes back is block t of the classifier's output on the embedding of the arrays the region finds. -/
theorem flushed_eq (hd : S50000x1.BroadcastsInDim S50000x256 (![0, 1] : Fin 2 → Fin 2))
    (hbias : S1x256.BroadcastsInDim S50000x256 (![0, 1] : Fin 2 → Fin 2))
    (hc : S1x7.BroadcastsInDim S50000x7 (![0, 1] : Fin 2 → Fin 2)) (c : Dev nD) (t : Fin cfg2.N) :
    (dat2 V c).flushed 5 t = ((cfg2.win 5).blk t).view.read (Elt Ideal)
      (logits hc (embedding hd hbias (V c main_v25) (V c main_v14) (V c main_v26)) (V c main_arg7) (V c main_v27)) := by
  obtain ⟨-, -, -, -, -, -, -, -, -, -, e0, e1⟩ := idx_facts t
  have ht : t.val < 50 := lt_of_lt_of_eq t.isLt N_2
  show (cfg2.win 5).cut (grid2.coords t) ((dat2 V c).after 5 t) = _
  rw [after2_5]
  unfold out2_5
  rw [View.canon_unit_zero hz]
  simp only [View.ld_unit_zero (S := S1000x256) hz, View.ld_unit_zero (S := S1000x1) hz, View.ld_unit_zero (S := S1x256) hz,
    View.ld_unit_zero (S := S256x7) hz, View.ld_unit_zero (S := S1x7) hz]
  funext y
  obtain ⟨p, q, rfl⟩ : ∃ (p : Fin 1000) (q : Fin 7), y = ix2 p q := ⟨y 0, y 1, eq_ix2 y⟩
  rw [View.read_apply]
  have hemb : ((cfg2.win 5).blk t).view.emb (ix2 p q) = ix2 (⟨1000 * t.val + p.val, by omega⟩ : Fin 50000) q := by
    funext a; apply Fin.ext
    match a with
    | ⟨0, _⟩ => show win2_5.index t (0 : Fin 2) * 1000 + 1 * p.val = 1000 * t.val + p.val; rw [e0]; omega
    | ⟨1, _⟩ => show win2_5.index t (1 : Fin 2) * 7 + 1 * q.val = q.val; rw [e1]; omega
  rw [hemb, logits_apply]
  show (k2_pay1 (F := Ideal) (iblk2 V c 0 t) (iblk2 V c 1 t) (iblk2 V c 2 t) (iblk2 V c 3 t) (iblk2 V c 4 t)) (ix2 p q) = _
  rw [pay_apply, cblk_apply V c t q]
  refine congrArg (fun z => z + _) ?_
  refine PlainDot.matmul_zero_rows_eq_dotGeneral 1000 50000 256 7 none _ _ _ _ p ⟨1000 * t.val + p.val, by omega⟩ q
    (fun k => ?_) (fun k => by rw [truncf_apply]; exact wblk_apply V c t k q)
  rw [truncf_apply, embeddingBlk_apply, embedding_apply, aggblk_apply V c t p k ⟨1000 * t.val + p.val, by omega⟩ rfl,
    dblk_apply V c t p ⟨1000 * t.val + p.val, by omega⟩ rfl, bblk_apply V c t k]

/-- An index of the result array is in point t's block iff each coordinate is in the block's range on its axis. -/
theorem mem_blk (t : Fin cfg2.N) (i : S50000x7.Idx) :
    i ∈ ((cfg2.win 5).blk t).view.set ↔ ∀ a : Fin 2, win2_5.index t a * S1000x7.size a ≤ (i a).val ∧ (i a).val < win2_5.index t a * S1000x7.size a + S1000x7.size a := by
  show i ∈ ((View.whole main_v28).slice (win2_5.rect t)).set ↔ _
  rw [View.set_slice_whole, Rect.mem_set_unit]
  exact Iff.rfl

/-- Row r of the result lies in the block of point r / 1000: the fifty blocks of a thousand rows tile the array. -/
theorem cover (i : S50000x7.Idx) : ∃ t : Fin cfg2.N, (cfg2.win 5).flush t = true ∧ i ∈ ((cfg2.win 5).blk t).view.set := by
  have hi0 : (i 0).val < 50000 := (i 0).isLt
  have hi1 : (i 1).val < 7 := (i 1).isLt
  have hN : cfg2.N = 50 := N_2
  have hlt : (i 0).val / 1000 < cfg2.N := by rw [hN]; omega
  obtain ⟨-, -, -, -, -, -, -, -, -, -, e0, e1⟩ := idx_facts ⟨(i 0).val / 1000, hlt⟩
  refine ⟨⟨(i 0).val / 1000, hlt⟩, flush2_5 _, ?_⟩
  rw [mem_blk]
  intro a
  match a with
  | ⟨0, _⟩ =>
    show win2_5.index ⟨(i 0).val / 1000, hlt⟩ (0 : Fin 2) * 1000 ≤ (i 0).val ∧ (i 0).val < win2_5.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win2_5.index ⟨(i 0).val / 1000, hlt⟩ (1 : Fin 2) * 7 ≤ (i 1).val ∧ (i 1).val < win2_5.index ⟨(i 0).val / 1000, hlt⟩ (1 : Fin 2) * 7 + 7
    rw [e1]; omega

/-- After the region the result array holds the classifier's output on the embedding of the arrays the region found. -/
theorem final (hd : S50000x1.BroadcastsInDim S50000x256 (![0, 1] : Fin 2 → Fin 2))
    (hbias : S1x256.BroadcastsInDim S50000x256 (![0, 1] : Fin 2 → Fin 2))
    (hc : S1x7.BroadcastsInDim S50000x7 (![0, 1] : Fin 2 → Fin 2)) (c : Dev nD) :
    (dat2 V c).arrAt 5 cfg2.N
      = logits hc (embedding hd hbias (V c main_v25) (V c main_v14) (V c main_v26)) (V c main_arg7) (V c main_v27) :=
  (dat2 V c).arrAt_eq_of_cover 5 _ (fun t _ => flushed_eq V hd hbias hc c t) cover

end Cert.KernelIdeal.Layer2

end
-- ==== Proof.Chain.lean ====
/-
THE KERNEL PROGRAM'S RESULT AS ONE FUNCTION OF ITS ARGUMENTS, read off the run boundary by boundary.
-/
import proofs.«411039_j50122268344779_1_alg».proof.Proof.Gen.KernelIdeal.Frame
import proofs.«411039_j50122268344779_1_alg».proof.Proof.HostStretches
import proofs.«411039_j50122268344779_1_alg».proof.Proof.Layer0
import proofs.«411039_j50122268344779_1_alg».proof.Proof.Layer1
import proofs.«411039_j50122268344779_1_alg».proof.Proof.Layer2

noncomputable section

open Idealize.ShloMosaic Idealize.ShloMosaic.TcCoe Idealize.SL.Sem Idealize.ShloMosaic.StableHlo
open Idealize.ShloMosaic.Pipeline (Dat)

namespace Cert.KernelIdeal.Chain

open Cert.KernelIdeal Cert.KernelIdeal.Gen Cert.KernelIdeal.Host

/-! ## The program's result as one function of its arguments

Through the program the buffers hold, in order: the two degree columns; the first projection scaled by the out-degree
column; its rows gathered at the edges' sources and summed into their destinations; the hidden rows projected and scaled
again; gathered and summed again; the embedding classified. Each boundary's contents at the buffers a later step reads are
read off the fold of host stretches and regions, one buffer at a time. -/

variable (hb0 : S50000x1.BroadcastsInDim S50000x384 (![0, 1] : Fin 2 → Fin 2))
  (hbias1 : S1x384.BroadcastsInDim S50000x384 (![0, 1] : Fin 2 → Fin 2))
  (hzero1 : S_.BroadcastsInDim S50000x384 (![] : Fin 0 → Fin 2))
  (hs1 : S50000x1.BroadcastsInDim S50000x256 (![0, 1] : Fin 2 → Fin 2))
  (hbias2 : S1x256.BroadcastsInDim S50000x256 (![0, 1] : Fin 2 → Fin 2))
  (hc2 : S1x7.BroadcastsInDim S50000x7 (![0, 1] : Fin 2 → Fin 2))

/-- The first layer's scaled projection. -/
def proj1 (x : FVec Ideal S50000x1433 .f32) (src : IVec S400000 32) (w1 : FVec Ideal S1433x384 .f32) : FVec Ideal S50000x384 .f32 :=
  Layer0.scaledProduct hb0 x w1 (degScale (F := Ideal) src)

/-- The first aggregation: the projected rows gathered at the sources, summed into the destinations. -/
def aggr1 (x : FVec Ideal S50000x1433 .f32) (src dst : IVec S400000 32) (w1 : FVec Ideal S1433x384 .f32) : FVec Ideal S50000x384 .f32 :=
  segSum384 dst (take384 (proj1 hb0 x src w1) src)

/-- The second layer's scaled projection of the hidden rows. -/
def proj2 (x : FVec Ideal S50000x1433 .f32) (src dst : IVec S400000 32) (w1 : FVec Ideal S1433x384 .f32) (b1 : FVec Ideal S384 .f32)
    (w2 : FVec Ideal S384x256 .f32) : FVec Ideal S50000x256 .f32 :=
  Layer1.scaledProduct hs1
    (Layer1.hidden hb0 hbias1 hzero1 (aggr1 hb0 x src dst w1) (degScale (F := Ideal) dst) (shapeCast S1x384 b1 shapeCasts_S384_S1x384))
    w2 (degScale (F := Ideal) src)

/-- The second aggregation. -/
def aggr2 (x : FVec Ideal S50000x1433 .f32) (src dst : IVec S400000 32) (w1 : FVec Ideal S1433x384 .f32) (b1 : FVec Ideal S384 .f32)
    (w2 : FVec Ideal S384x256 .f32) : FVec Ideal S50000x256 .f32 :=
  segSum256 dst (take256 (proj2 hb0 hbias1 hzero1 hs1 x src dst w1 b1 w2) src)

/-- The logits. -/
def result (x : FVec Ideal S50000x1433 .f32) (src dst : IVec S400000 32) (w1 : FVec Ideal S1433x384 .f32) (b1 : FVec Ideal S384 .f32)
    (w2 : FVec Ideal S384x256 .f32) (b2 : FVec Ideal S256 .f32) (wc : FVec Ideal S256x7 .f32) (bc : FVec Ideal S7 .f32) : FVec Ideal S50000x7 .f32 :=
  Layer2.logits hc2
    (Layer2.embedding hs1 hbias2 (aggr2 hb0 hbias1 hzero1 hs1 x src dst w1 b1 w2) (degScale (F := Ideal) dst) (shapeCast S1x256 b2 shapeCasts_S256_S1x256))
    wc (shapeCast S1x7 bc shapeCasts_S7_S1x7)

variable (m : (ℓ : Loc nD τ sig) → Buf (Elt Ideal) ℓ) (ρ : Dev nD → PrngReg) (c : Dev nD)

/-! ### At the first region's entry -/

theorem W1_arg (r : Ref sig .tc) (hr : r ∉ written0) : W1 m ρ c (Proc.devRef .tc r) = m ((c : Thread nD τ).loc r) :=
  (keep0 (W0 m ρ c) r hr).trans rfl

theorem W1_v10 : W1 m ρ c (Proc.devRef .tc main_v10) = degScale (F := Ideal) (m ((c : Thread nD τ).loc main_arg1)) := outScale0 (W0 m ρ c)
theorem W1_v14 : W1 m ρ c (Proc.devRef .tc main_v14) = degScale (F := Ideal) (m ((c : Thread nD τ).loc main_arg2)) := inScale0 (W0 m ρ c)

/-! ### At the first region's exit -/

theorem W2_arg (r : Ref sig .tc) (hr : r ∉ written0) (hne : ∀ w, Pipeline.arrRef spec0 w ≠ r) :
    W2 m ρ c (Proc.devRef .tc r) = m ((c : Thread nD τ).loc r) :=
  (W2_of_ne m ρ c r hne).trans (W1_arg m ρ c r hr)

theorem W2_v14 : W2 m ρ c (Proc.devRef .tc main_v14) = degScale (F := Ideal) (m ((c : Thread nD τ).loc main_arg2)) :=
  (W2_of_ne m ρ c main_v14 (by decide)).trans (W1_v14 m ρ c)

theorem W2_v10 : W2 m ρ c (Proc.devRef .tc main_v10) = degScale (F := Ideal) (m ((c : Thread nD τ).loc main_arg1)) :=
  ((W2_arr m ρ c 2).trans (((dat0 (V1 m ρ) c).arrAt_in 2 rfl _).trans (A_eq0 (V1 m ρ) c 2))).trans (W1_v10 m ρ c)

theorem W2_v15 : W2 m ρ c (Proc.devRef .tc main_v15) = proj1 hb0 (m ((c : Thread nD τ).loc main_arg0)) (m ((c : Thread nD τ).loc main_arg1)) (m ((c : Thread nD τ).loc main_arg3)) := by
  refine (W2_arr m ρ c 3).trans ((Layer0.final (V1 m ρ) hb0 c).trans ?_)
  dsimp only [V1]
  rw [W1_arg m ρ c main_arg0 (by decide), W1_arg m ρ c main_arg3 (by decide), W1_v10 m ρ c]
  rfl

/-! ### At the second region's entry -/

theorem W3_keep (r : Ref sig .tc) (h1 : r ∉ written1) : W3 m ρ c (Proc.devRef .tc r) = W2 m ρ c (Proc.devRef .tc r) :=
  keep1 (W2 m ρ c) r h1

theorem W4_arg (r : Ref sig .tc) (hr : r ∉ written0) (hne : ∀ w, Pipeline.arrRef spec0 w ≠ r) (h1 : r ∉ written1) (h11 : r ∉ written1_1) :
    W4 m ρ c (Proc.devRef .tc r) = m ((c : Thread nD τ).loc r) :=
  (keep1_1 (W3 m ρ c) r h11).trans ((keep1 (W2 m ρ c) r h1).trans (W2_arg m ρ c r hr hne))

theorem W4_v14 : W4 m ρ c (Proc.devRef .tc main_v14) = degScale (F := Ideal) (m ((c : Thread nD τ).loc main_arg2)) :=
  (keep1_1 (W3 m ρ c) main_v14 (by decide)).trans ((keep1 (W2 m ρ c) main_v14 (by decide)).trans (W2_v14 m ρ c))

theorem W4_v10 : W4 m ρ c (Proc.devRef .tc main_v10) = degScale (F := Ideal) (m ((c : Thread nD τ).loc main_arg1)) :=
  (keep1_1 (W3 m ρ c) main_v10 (by decide)).trans ((keep1 (W2 m ρ c) main_v10 (by decide)).trans (W2_v10 m ρ c))

theorem W4_v19 : W4 m ρ c (Proc.devRef .tc main_v19) = aggr1 hb0 (m ((c : Thread nD τ).loc main_arg0)) (m ((c : Thread nD τ).loc main_arg1)) (m ((c : Thread nD τ).loc main_arg2)) (m ((c : Thread nD τ).loc main_arg3)) := by
  refine (agg1 (W3 m ρ c)).trans ?_
  rw [W3_keep m ρ c main_arg2 (by decide), W2_arg m ρ c main_arg2 (by decide) (by decide)]
  have e : W3 m ρ c (Proc.devRef .tc main_v16) = take384 (proj1 hb0 (m ((c : Thread nD τ).loc main_arg0)) (m ((c : Thread nD τ).loc main_arg1)) (m ((c : Thread nD τ).loc main_arg3))) (m ((c : Thread nD τ).loc main_arg1)) := by
    refine (take1 (W2 m ρ c)).trans ?_
    rw [W2_v15 hb0 m ρ c, W2_arg m ρ c main_arg1 (by decide) (by decide)]
  rw [e]
  rfl

theorem W4_v20 : W4 m ρ c (Proc.devRef .tc main_v20) = shapeCast S1x384 (m ((c : Thread nD τ).loc main_arg4) : FVec Ideal S384 .f32) shapeCasts_S384_S1x384 := by
  refine (biasRow1 (W3 m ρ c)).trans ?_
  rw [W3_keep m ρ c main_arg4 (by decide), W2_arg m ρ c main_arg4 (by decide) (by decide)]

/-! ### At the second region's exit -/

theorem W5_arg (r : Ref sig .tc) (hr : r ∉ written0) (hne : ∀ w, Pipeline.arrRef spec0 w ≠ r) (h1 : r ∉ written1) (h11 : r ∉ written1_1)
    (hne1 : ∀ w, Pipeline.arrRef spec1 w ≠ r) : W5 m ρ c (Proc.devRef .tc r) = m ((c : Thread nD τ).loc r) :=
  (W5_of_ne m ρ c r hne1).trans (W4_arg m ρ c r hr hne h1 h11)

theorem W5_v14 : W5 m ρ c (Proc.devRef .tc main_v14) = degScale (F := Ideal) (m ((c : Thread nD τ).loc main_arg2)) :=
  ((W5_arr m ρ c 1).trans (((dat1 (V4 m ρ) c).arrAt_in 1 rfl _).trans (A_eq1 (V4 m ρ) c 1))).trans (W4_v14 m ρ c)

theorem W5_v21 : W5 m ρ c (Proc.devRef .tc main_v21)
    = proj2 hb0 hbias1 hzero1 hs1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W5_arr m ρ c 5).trans ((Layer1.final (V4 m ρ) hb0 hbias1 hzero1 hs1 c).trans ?_)
  dsimp only [V4]
  rw [W4_v19 hb0 m ρ c, W4_v14 m ρ c, W4_v20 m ρ c, W4_arg m ρ c main_arg5 (by decide) (by decide) (by decide) (by decide), W4_v10 m ρ c]
  rfl

/-! ### At the third region's entry -/

theorem W7_arg (r : Ref sig .tc) (hr : r ∉ written0) (hne : ∀ w, Pipeline.arrRef spec0 w ≠ r) (h1 : r ∉ written1) (h11 : r ∉ written1_1)
    (hne1 : ∀ w, Pipeline.arrRef spec1 w ≠ r) (h2 : r ∉ written2) (h21 : r ∉ written2_1) :
    W7 m ρ c (Proc.devRef .tc r) = m ((c : Thread nD τ).loc r) :=
  (keep2_1 (W6 m ρ c) r h21).trans ((keep2 (W5 m ρ c) r h2).trans (W5_arg m ρ c r hr hne h1 h11 hne1))

theorem W6_arg (r : Ref sig .tc) (hr : r ∉ written0) (hne : ∀ w, Pipeline.arrRef spec0 w ≠ r) (h1 : r ∉ written1) (h11 : r ∉ written1_1)
    (hne1 : ∀ w, Pipeline.arrRef spec1 w ≠ r) (h2 : r ∉ written2) :
    W6 m ρ c (Proc.devRef .tc r) = m ((c : Thread nD τ).loc r) :=
  (keep2 (W5 m ρ c) r h2).trans (W5_arg m ρ c r hr hne h1 h11 hne1)

theorem W7_v14 : W7 m ρ c (Proc.devRef .tc main_v14) = degScale (F := Ideal) (m ((c : Thread nD τ).loc main_arg2)) :=
  (keep2_1 (W6 m ρ c) main_v14 (by decide)).trans ((keep2 (W5 m ρ c) main_v14 (by decide)).trans (W5_v14 m ρ c))

theorem W7_v25 : W7 m ρ c (Proc.devRef .tc main_v25)
    = aggr2 hb0 hbias1 hzero1 hs1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (agg2 (W6 m ρ c)).trans ?_
  rw [W6_arg m ρ c main_arg2 (by decide) (by decide) (by decide) (by decide) (by decide) (by decide)]
  have e : W6 m ρ c (Proc.devRef .tc main_v22)
      = take256 (proj2 hb0 hbias1 hzero1 hs1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) := by
    refine (take2 (W5 m ρ c)).trans ?_
    rw [W5_v21 hb0 hbias1 hzero1 hs1 m ρ c, W5_arg m ρ c main_arg1 (by decide) (by decide) (by decide) (by decide) (by decide)]
  rw [e]
  rfl

theorem W7_v26 : W7 m ρ c (Proc.devRef .tc main_v26) = shapeCast S1x256 (m ((c : Thread nD τ).loc main_arg6) : FVec Ideal S256 .f32) shapeCasts_S256_S1x256 := by
  refine (biasRow2 (W6 m ρ c)).trans ?_
  rw [W6_arg m ρ c main_arg6 (by decide) (by decide) (by decide) (by decide) (by decide) (by decide)]

theorem W7_v27 : W7 m ρ c (Proc.devRef .tc main_v27) = shapeCast S1x7 (m ((c : Thread nD τ).loc main_arg8) : FVec Ideal S7 .f32) shapeCasts_S7_S1x7 := by
  refine (classBiasRow (W6 m ρ c)).trans ?_
  rw [W6_arg m ρ c main_arg8 (by decide) (by decide) (by decide) (by decide) (by decide) (by decide)]

/-! ### At the return -/

/-- The result buffer at the return holds the logits of the arguments. -/
theorem W8_v28 : W8 m ρ c (Proc.devRef .tc main_v28)
    = result hb0 hbias1 hzero1 hs1 hbias2 hc2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 5).trans ((Layer2.final (V7 m ρ) hs1 hbias2 hc2 c).trans ?_)
  dsimp only [V7]
  rw [W7_v25 hb0 hbias1 hzero1 hs1 m ρ c, W7_v14 m ρ c, W7_v26 m ρ c,
    W7_arg m ρ c main_arg7 (by decide) (by decide) (by decide) (by decide) (by decide) (by decide) (by decide), W7_v27 m ρ c]
  rfl

end Cert.KernelIdeal.Chain

end
-- ==== Proof.IndexWord.lean ====
/-
A signed 32-bit index word in -50000 … 49999, counted from the end of an axis of extent 50000 when negative.
-/
import Idealize.ShloMosaic.Lib.StableHlo.Predicate

namespace Cert.IndexWord

open Idealize.ShloMosaic Idealize.ShloMosaic.StableHlo.Predicate

/-- A 32-bit word x read signed with -50000 ≤ x < 50000, moved up by 50000 when negative (NumPy's negative index
    counted from the end of an axis of extent 50000), lies in 0 … 49999. -/
theorem wrap_in_range (x : BitVec 32)
    (h1 : IntOp.cmpi .sge x 4294917296#32 = 1#1) (h2 : IntOp.cmpi .slt x 50000#32 = 1#1) :
    IntOp.cmpi .sge (Scalar.select (IntOp.cmpi .slt x 0#32) (IntOp.addi x 50000#32) x) 0#32 = 1#1
    ∧ IntOp.cmpi .sle (Scalar.select (IntOp.cmpi .slt x 0#32) (IntOp.addi x 50000#32) x) 49999#32 = 1#1 := by
  have hx : x.toNat < 4294967296 := x.isLt
  simp only [IntOp.cmpi, ofBool_eq_one_iff, BitVec.sle, BitVec.slt, decide_eq_true_eq, BitVec.toInt_eq_toNat_cond,
    BitVec.toNat_ofNat] at h1 h2
  by_cases hneg : x.slt 0#32 = true
  · have hs : Scalar.select (IntOp.cmpi .slt x 0#32) (IntOp.addi x 50000#32) x = x + 50000#32 := by
      simp only [Scalar.select, IntOp.cmpi, IntOp.addi, hneg, BitVec.ofBool_true]; rfl
    rw [hs]
    simp only [BitVec.slt, decide_eq_true_eq, BitVec.toInt_eq_toNat_cond, BitVec.toNat_ofNat] at hneg
    simp only [IntOp.cmpi, ofBool_eq_one_iff, BitVec.sle, decide_eq_true_eq, BitVec.toInt_eq_toNat_cond,
      BitVec.toNat_ofNat, BitVec.toNat_add]
    constructor <;> (split_ifs at h1 h2 hneg ⊢ <;> omega)
  · have hs : Scalar.select (IntOp.cmpi .slt x 0#32) (IntOp.addi x 50000#32) x = x := by
      simp only [Bool.not_eq_true] at hneg
      simp only [Scalar.select, IntOp.cmpi, hneg, BitVec.ofBool_false]; rfl
    rw [hs]
    simp only [BitVec.slt, decide_eq_true_eq, BitVec.toInt_eq_toNat_cond, BitVec.toNat_ofNat] at hneg
    simp only [IntOp.cmpi, ofBool_eq_one_iff, BitVec.sle, decide_eq_true_eq, BitVec.toInt_eq_toNat_cond,
      BitVec.toNat_ofNat]
    constructor <;> (split_ifs at h1 h2 hneg ⊢ <;> omega)

end Cert.IndexWord
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.SourceRange.lean ====
/-
VALID SOURCES: THE GATHER NEVER TAKES ITS FILL.

  The precondition's last conjunct says that every edge's source, read as a signed 32-bit word, is at least -50000 and
  below 50000. Such a word, moved up by 50000 when it is negative, lies in 0 … 49999; so the per-edge in-range flag the
  gather computes is 1 at every edge, and the select between the gathered row and the NaN fill is the gathered row.
-/
import proofs.«411039_j50122268344779_1_alg».proof.Pre_finite_inputs
import proofs.«411039_j50122268344779_1_alg».proof.Proof.HostStretches
import proofs.«411039_j50122268344779_1_alg».proof.Proof.IndexWord
import proofs.«411039_j50122268344779_1_alg».proof.Proof.LibReduceAnd
import Idealize.ShloMosaic.Lib.ReduceAll
import Idealize.ShloMosaic.Lib.Affine
import Idealize.ShloMosaic.Lib.ValueIdx
import Idealize.ShloMosaic.Lib.ValueLayout
import Idealize.ShloMosaic.Lib.Pipeline.Value
import Idealize.ShloMosaic.PureOps.Ideal

noncomputable section

open Idealize.ShloMosaic Idealize.ShloMosaic.ValueIdx

namespace Cert.KernelIdeal.SourceRange

open Cert.KernelIdeal Cert.KernelIdeal.Gen Cert.KernelIdeal.Host

/-- Every edge's source, read signed, is at least -50000 and below 50000: a valid NumPy index into an axis of extent 50000. -/
def ValidSources (idx : IVec S400000 32) : Prop :=
  ∀ p : Fin 400000, IntOp.cmpi .sge (idx (ix1 p)) 4294917296#32 = 1#1 ∧ IntOp.cmpi .slt (idx (ix1 p)) 50000#32 = 1#1

instance : Subsingleton Cert.Pre_finite_inputs.S_.Idx := ⟨fun a b => funext fun d => d.elim0⟩

/-- The precondition's last conjunct, read: the sources are valid. -/
theorem valid_of_pre [Cert.Pre_finite_inputs.Facts]
    (a0 : FVec Ideal Cert.Pre_finite_inputs.S50000x1433 .f32) (a1 a2 : IVec Cert.Pre_finite_inputs.S400000 32)
    (a3 : FVec Ideal Cert.Pre_finite_inputs.S1433x384 .f32) (a4 : FVec Ideal Cert.Pre_finite_inputs.S384 .f32)
    (a5 : FVec Ideal Cert.Pre_finite_inputs.S384x256 .f32) (a6 : FVec Ideal Cert.Pre_finite_inputs.S256 .f32)
    (a7 : FVec Ideal Cert.Pre_finite_inputs.S256x7 .f32) (a8 : FVec Ideal Cert.Pre_finite_inputs.S7 .f32)
    (h : Cert.Pre_finite_inputs.fn (F := Ideal) a0 a1 a2 a3 a4 a5 a6 a7 a8 = fun _ => 1#1) : ValidSources a1 := by
  intro p
  have h0 := congrFun h ix0
  unfold Cert.Pre_finite_inputs.fn Cert.Pre_finite_inputs.fn_part1 Cert.Pre_finite_inputs.fn_part2 at h0
  dsimp only at h0
  have h1 := (IntOp.andi_eq_one.1 h0).2
  have h2 := Host.reduce_andi_all _ _ _ _ ix0 h1 (ix1 p)
  obtain ⟨ha, hb⟩ := IntOp.andi_eq_one.1 h2
  have e0 : broadcastInDim Cert.Pre_finite_inputs.S400000 ![] Cert.Pre_finite_inputs.Facts.bcast_S_S400000
      (constantI Cert.Pre_finite_inputs.S_ 32 4294917296#32) (ix1 p) = 4294917296#32 := by
    rw [broadcastInDim_apply _ _ _ (ix1 p) ix0 (fun a => a.elim0)]; rfl
  have e1 : broadcastInDim Cert.Pre_finite_inputs.S400000 ![] Cert.Pre_finite_inputs.Facts.bcast_S_S400000
      (constantI Cert.Pre_finite_inputs.S_ 32 50000#32) (ix1 p) = 50000#32 := by
    rw [broadcastInDim_apply _ _ _ (ix1 p) ix0 (fun a => a.elim0)]; rfl
  have ha' : IntOp.cmpi .sge (a1 (ix1 p)) (broadcastInDim Cert.Pre_finite_inputs.S400000 ![] Cert.Pre_finite_inputs.Facts.bcast_S_S400000
      (constantI Cert.Pre_finite_inputs.S_ 32 4294917296#32) (ix1 p)) = 1#1 := ha
  have hb' : IntOp.cmpi .slt (a1 (ix1 p)) (broadcastInDim Cert.Pre_finite_inputs.S400000 ![] Cert.Pre_finite_inputs.Facts.bcast_S_S400000
      (constantI Cert.Pre_finite_inputs.S_ 32 50000#32) (ix1 p)) = 1#1 := hb
  rw [e0] at ha'
  rw [e1] at hb'
  exact ⟨ha', hb'⟩

/-- The wrapped source of edge p. -/
theorem wrapIdx_apply (idx : IVec S400000 32) (p : Fin 400000) (u : Fin 1) :
    wrapIdx idx (ix2 p u)
      = Scalar.select (IntOp.cmpi .slt (idx (ix1 p)) 0#32) (IntOp.addi (idx (ix1 p)) 50000#32) (idx (ix1 p)) := by
  unfold wrapIdx
  rw [broadcastInDim_apply _ _ _ (ix2 p u) (ix1 p) (fun a => by match a with | ⟨0, _⟩ => rfl), select_apply]
  have e0 : broadcastInDim S400000 ![] bcast_S_S400000 (constantI S_ 32 0#32) (ix1 p) = 0#32 :=
    (broadcastInDim_apply _ _ _ (ix1 p) ix0 fun a => a.elim0).trans rfl
  have e1 : broadcastInDim S400000 ![] bcast_S_S400000 (constantI S_ 32 50000#32) (ix1 p) = 50000#32 :=
    (broadcastInDim_apply _ _ _ (ix1 p) ix0 fun a => a.elim0).trans rfl
  show Scalar.select (IntOp.cmpi .slt (idx (ix1 p)) (broadcastInDim S400000 ![] bcast_S_S400000 (constantI S_ 32 0#32) (ix1 p)))
    (IntOp.addi (idx (ix1 p)) (broadcastInDim S400000 ![] bcast_S_S400000 (constantI S_ 32 50000#32) (ix1 p))) (idx (ix1 p)) = _
  rw [e0, e1]

/-- With valid sources every edge's wrapped source is in range. -/
theorem inRange_eq_one (idx : IVec S400000 32) (h : ValidSources idx) : inRange idx = fun _ => 1#1 := by
  funext e
  unfold inRange
  refine Host.reduce_andi_of_all _ _ _ _ e rfl fun i _ => ?_
  obtain ⟨p, u, rfl⟩ : ∃ (p : Fin 400000) (u : Fin 1), i = ix2 p u := ⟨i 0, i 1, eq_ix2 i⟩
  obtain ⟨h1, h2⟩ := h p
  obtain ⟨g1, g2⟩ := Cert.IndexWord.wrap_in_range (idx (ix1 p)) h1 h2
  have e0 : broadcastInDim S400000x1 ![] bcast_S_S400000x1 (constantI S_ 32 0#32) (ix2 p u) = 0#32 :=
    (broadcastInDim_apply _ _ _ (ix2 p u) ix0 fun a => a.elim0).trans rfl
  have e1 : broadcastInDim S400000x1 ![0, 1] bcast_S1x1_S400000x1_0_1
      (broadcastInDim S1x1 ![1] bcast_S1_S1x1_1 (constantI S1 32 49999#32)) (ix2 p u) = 49999#32 :=
    (broadcastInDim_apply _ _ _ (ix2 p u) (ix2 (0 : Fin 1) (0 : Fin 1)) fun a => by
      match a with
      | ⟨0, _⟩ => rfl
      | ⟨1, _⟩ => rfl).trans
      ((broadcastInDim_apply _ _ _ (ix2 (0 : Fin 1) (0 : Fin 1)) (ix1 (0 : Fin 1)) fun a => by
        match a with
        | ⟨0, _⟩ => rfl).trans rfl)
  show IntOp.andi (IntOp.cmpi .sge (wrapIdx idx (ix2 p u)) (broadcastInDim S400000x1 ![] bcast_S_S400000x1 (constantI S_ 32 0#32) (ix2 p u)))
    (IntOp.cmpi .sle (wrapIdx idx (ix2 p u)) (broadcastInDim S400000x1 ![0, 1] bcast_S1x1_S400000x1_0_1
      (broadcastInDim S1x1 ![1] bcast_S1_S1x1_1 (constantI S1 32 49999#32)) (ix2 p u))) = 1#1
  rw [e0, e1, wrapIdx_apply, g1, g2]
  rfl

variable {F : FTy → Type} [FloatOps F]

/-- With valid sources the gathered rows are the gather itself: the fill is never taken (384 columns). -/
theorem take384_eq (H : FVec F S50000x384 .f32) (idx : IVec S400000 32) (h : ValidSources idx) :
    take384 H idx = Host.gather gather_S50000x384_S400000x1_S400000x384_1_0_n_n_0_1_1384 H (wrapIdx idx) := by
  unfold take384
  rw [inRange_eq_one idx h]
  funext i
  rw [select_apply]
  exact if_pos rfl

/-- The same for 256 columns. -/
theorem take256_eq (H : FVec F S50000x256 .f32) (idx : IVec S400000 32) (h : ValidSources idx) :
    take256 H idx = Host.gather gather_S50000x256_S400000x1_S400000x256_1_0_n_n_0_1_1256 H (wrapIdx idx) := by
  unfold take256
  rw [inRange_eq_one idx h]
  funext i
  rw [select_apply]
  exact if_pos rfl

end Cert.KernelIdeal.SourceRange

end
-- ==== Proof.LibVectorAsColumnRow.lean ====
/-
  A VECTOR LAID OUT AS A COLUMN OR AS A ROW, BY A CAST OR BY A BROADCAST, IS ONE ARRAY.

  jnp's `v.reshape(n, 1)` prints as a shape cast of the [n] vector to [n, 1]; `v[:, None]` prints as a broadcast of the
  vector along a new trailing axis (`broadcast_in_dim` with dims [0]). Both read, at (i, 0), the vector at i, so the two
  [n, 1] arrays are equal; likewise `v.reshape(1, n)` and `v[None, :]` (dims [1]) read, at (0, j), the vector at j. Stated
  as equations between whole arrays, for any extent and any element type, so that a term built with one spelling can be
  rewritten into the other under further array operations.
-/
import Idealize.ShloMosaic.Lib.Pipeline.Value
import Idealize.ShloMosaic.Lib.ValueIdx
import Idealize.ShloMosaic.Lib.ValueLayout
import proofs.«411039_j50122268344779_1_alg».proof.Proof.LibKeepdimsColumn

noncomputable section

namespace Idealize.ShloMosaic.VectorLayout

open Idealize.ShloMosaic Idealize.ShloMosaic.ValueIdx

/-- A vector laid out as a column — by a cast, or by a broadcast along a new trailing axis — is one array. -/
theorem column_cast_eq_broadcast {α : Type} {a : ℕ} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ v h = broadcastInDim ⟨2, ![a, 1]⟩ ![0] h' v := by
  funext i
  obtain ⟨p, u, rfl⟩ : ∃ (p : Fin a) (u : Fin 1), i = ix2 p u := ⟨i 0, i 1, eq_ix2 i⟩
  rw [KeepdimsColumn.shapeCast_a_a1_apply v h p u]
  refine (broadcastInDim_apply _ h' v (ix2 p u) (ix1 p) fun x => ?_).symm
  match x with
  | ⟨0, _⟩ =>
    show p.val = if a = 1 then 0 else p.val
    split
    · have := p.isLt; omega
    · rfl

/-- A vector laid out as a row — by a cast, or by a broadcast along a new leading axis — is one array. -/
theorem row_cast_eq_broadcast {α : Type} {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply v h u q]
  refine (broadcastInDim_apply _ h' v (ix2 u q) (ix1 q) fun x => ?_).symm
  match x with
  | ⟨0, _⟩ =>
    show q.val = if b = 1 then 0 else q.val
    split
    · have := q.isLt; omega
    · rfl

end Idealize.ShloMosaic.VectorLayout

end
-- ==== Proof.Bridge.lean ====
/-
THE TWO PROGRAMS' RESULTS ARE ONE TERM OF THE ARGUMENTS.

  Unfolded, the kernel program's result is the reference's composition of array operations but for three spellings: the
  kernel's gathers carry a fill that valid sources never take; a degree factor is laid out as a column by a cast where the
  reference broadcasts it along a new axis, and a bias as a row likewise; and the two programs' records of dimension numbers
  are separate definitions with the same fields. The first two are rewritten; the last is definitional.
-/
import proofs.«411039_j50122268344779_1_alg».proof.Proof.Chain
import proofs.«411039_j50122268344779_1_alg».proof.Proof.SourceRange
import proofs.«411039_j50122268344779_1_alg».proof.Proof.LibVectorAsColumnRow
import proofs.«411039_j50122268344779_1_alg».proof.Proof.Gen.ReferenceIdeal
import proofs.«411039_j50122268344779_1_alg».proof.Proof.Gen.ReferenceIdeal.Run

noncomputable section

open Idealize.ShloMosaic Idealize.ShloMosaic.TcCoe Idealize.SL.Sem Idealize.ShloMosaic.ValueIdx

namespace Cert.Bridge

open Cert.KernelIdeal in
/-- With valid sources, the kernel program's result as a function of its arguments is the reference's composed term of
    the same arguments: the two programs apply the same operations, the kernel's gathers never taking their fill. -/
theorem result_eq_reference (m' : (ℓ : Loc Cert.ReferenceIdeal.nD Cert.ReferenceIdeal.τ Cert.ReferenceIdeal.sig) → Buf (Elt Ideal) ℓ)
    (c : Dev Cert.ReferenceIdeal.nD)
    (hv : SourceRange.ValidSources (m' ((c.tc : Thread Cert.ReferenceIdeal.nD Cert.ReferenceIdeal.τ).loc Cert.ReferenceIdeal.main_arg1))) :
    Chain.result Cert.ReferenceIdeal.Gen.bcast_S50000x1_S50000x384_0_1 Cert.ReferenceIdeal.Gen.bcast_S1x384_S50000x384_0_1
        Cert.ReferenceIdeal.Gen.bcast_S_S50000x384 Cert.ReferenceIdeal.Gen.bcast_S50000x1_S50000x256_0_1
        Cert.ReferenceIdeal.Gen.bcast_S1x256_S50000x256_0_1 Cert.ReferenceIdeal.Gen.bcast_S1x7_S50000x7_0_1
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.ReferenceIdeal.Value.res_main_v57 m' c := by
  unfold Chain.result Chain.aggr2 Chain.proj2 Chain.aggr1 Chain.proj1
  rw [SourceRange.take256_eq _ _ hv, SourceRange.take384_eq _ _ hv]
  unfold Layer2.logits Layer2.embedding Layer1.scaledProduct Layer1.hidden Layer0.scaledProduct
    Host.segSum384 Host.segSum256 Host.degScale Host.wrapIdx
  rw [VectorLayout.column_cast_eq_broadcast _ _ Cert.ReferenceIdeal.Gen.bcast_S50000_S50000x1_0,
    VectorLayout.column_cast_eq_broadcast _ _ Cert.ReferenceIdeal.Gen.bcast_S50000_S50000x1_0,
    VectorLayout.row_cast_eq_broadcast _ _ Cert.ReferenceIdeal.Gen.bcast_S384_S1x384_1,
    VectorLayout.row_cast_eq_broadcast _ _ Cert.ReferenceIdeal.Gen.bcast_S256_S1x256_1,
    VectorLayout.row_cast_eq_broadcast _ _ Cert.ReferenceIdeal.Gen.bcast_S7_S1x7_1]
  unfold Cert.ReferenceIdeal.Value.res_main_v57
  rfl

end Cert.Bridge

end
-- ==== Proof.lean ====
/-
  A two-layer graph convolution: three fused kernels against the plain composition.

  Both programs compute, for node features x, edge lists (src, dst), weights W1, W2, Wc and biases b1, b2, bc,

    s = 1/√max(outdeg, 1),  d = 1/√max(indeg, 1)            (one factor per node, from the edge lists)
    H1 = (x W1) · s                                          (row i scaled by s[i])
    A1[v] = Σ over edges e with dst[e] = v of H1[src[e]]     (rows gathered at the sources, summed into the destinations)
    H2 = (max(A1 · d + b1, 0) W2) · s
    A2[v] = Σ over edges e with dst[e] = v of H2[src[e]]
    logits = (A2 · d + b2) Wc + bc.

  The kernel program computes the three dense steps in three grid kernels, each over fifty blocks of a thousand rows;
  a block's product of its rows with the whole weight matrix is those rows of the whole product, term by term, so
  each kernel's output array is the same array operation the reference applies (the modules Layer0, Layer1, Layer2:
  what one grid point writes back is its block of that array, and the fifty blocks tile it). Between the kernels both
  programs run the same gathers and segment sums on the host; the one difference is that the kernel program's gather
  fills a row with NaN where an edge's source is out of range while the reference's gather clamps the index. Under the
  precondition every source is a valid index (read signed, -50000 ≤ src < 50000, a negative one counted from the end), the
  fill is never taken (SourceRange), and the two results are one term of the arguments (Bridge). No law of the extended reals
  beyond the equality of the two products' terms is used, so finiteness of the float inputs is not needed for the values.

  The three frames: the two kernel programs' are the generated frames; the reference's is its generated run with the
  result dropped. No operation was rewritten between the printed kernel and its idealization.
-/
import proofs.«411039_j50122268344779_1_alg».proof.Defs
import proofs.«411039_j50122268344779_1_alg».proof.Proof.Gen.Kernel
import proofs.«411039_j50122268344779_1_alg».proof.Proof.Gen.Kernel.Skeleton
import proofs.«411039_j50122268344779_1_alg».proof.Proof.Gen.Kernel.Launch
import proofs.«411039_j50122268344779_1_alg».proof.Proof.Gen.Kernel.Points
import proofs.«411039_j50122268344779_1_alg».proof.Proof.Gen.Kernel.Frame
import proofs.«411039_j50122268344779_1_alg».proof.Proof.Gen.KernelIdeal
import proofs.«411039_j50122268344779_1_alg».proof.Proof.Gen.KernelIdeal.Skeleton
import proofs.«411039_j50122268344779_1_alg».proof.Proof.Gen.KernelIdeal.Launch
import proofs.«411039_j50122268344779_1_alg».proof.Proof.Gen.KernelIdeal.Points
import proofs.«411039_j50122268344779_1_alg».proof.Proof.Gen.KernelIdeal.Frame
import proofs.«411039_j50122268344779_1_alg».proof.Proof.Gen.ReferenceIdeal
import proofs.«411039_j50122268344779_1_alg».proof.Proof.Gen.ReferenceIdeal.Run
import proofs.«411039_j50122268344779_1_alg».proof.Proof.Gen.Pre_finite_inputs
import proofs.«411039_j50122268344779_1_alg».proof.Proof.KernelRun
import proofs.«411039_j50122268344779_1_alg».proof.Proof.Chain
import proofs.«411039_j50122268344779_1_alg».proof.Proof.SourceRange
import proofs.«411039_j50122268344779_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments and meet the precondition, both programs end with the logits of the arguments. -/
theorem algebraic : Cert.algebraic_KernelIdeal_ReferenceIdeal := by
  intro m ρ m' ρ' hpre hagree
  refine ⟨fun c => Cert.KernelIdeal.Chain.result Cert.ReferenceIdeal.Gen.bcast_S50000x1_S50000x384_0_1 Cert.ReferenceIdeal.Gen.bcast_S1x384_S50000x384_0_1
        Cert.ReferenceIdeal.Gen.bcast_S_S50000x384 Cert.ReferenceIdeal.Gen.bcast_S50000x1_S50000x256_0_1
        Cert.ReferenceIdeal.Gen.bcast_S1x256_S50000x256_0_1 Cert.ReferenceIdeal.Gen.bcast_S1x7_S50000x7_0_1
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.W8_v28 _ _ _ _ _ _ m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    have hv : Cert.KernelIdeal.SourceRange.ValidSources (m' ((c.tc : Thread Cert.ReferenceIdeal.nD Cert.ReferenceIdeal.τ).loc Cert.ReferenceIdeal.main_arg1)) := by
      rw [e1]
      exact Cert.KernelIdeal.SourceRange.valid_of_pre _ _ _ _ _ _ _ _ _ (hpre c)
    refine (Cert.Bridge.result_eq_reference m' c hv).symm.trans ?_
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
